-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x16 .f32) (main_arg1 : FVec F S16x32 .f32) (main_arg2 : FVec F S32 .f32) (main_arg3 : FVec F S32x16 .f32) (main_arg4 : FVec F S16 .f32) (main_arg5 : IVec S2x3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg1
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x16 : Shape := ⟨2, ![5000, 16]⟩
abbrev S5000x32 : Shape := ⟨2, ![5000, 32]⟩
abbrev S3300000x32 : Shape := ⟨2, ![3300000, 32]⟩
abbrev S20000x32 : Shape := ⟨2, ![20000, 32]⟩
abbrev S20000x1 : Shape := ⟨2, ![20000, 1]⟩
abbrev S1x32 : Shape := ⟨2, ![1, 32]⟩
abbrev S3300000x16 : Shape := ⟨2, ![3300000, 16]⟩
abbrev S20000x16 : Shape := ⟨2, ![20000, 16]⟩
abbrev S1x16 : Shape := ⟨2, ![1, 16]⟩

abbrev nBuf : Space → Nat
  | .hbm => 81
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S16x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x32, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x32, .f32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x16, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x16, .f32⟩
  | .hbm, ⟨74, _⟩ => ⟨S3300000x16, .f32⟩
  | .hbm, ⟨75, _⟩ => ⟨S_, .f32⟩
  | .hbm, ⟨76, _⟩ => ⟨S100000x16, .f32⟩
  | .hbm, ⟨77, _⟩ => ⟨S3300000x1, .i32⟩
  | .hbm, ⟨78, _⟩ => ⟨S100000x16, .f32⟩
  | .hbm, ⟨79, _⟩ => ⟨S1x16, .f32⟩
  | .hbm, ⟨80, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S5000x32, .f32⟩
  | .local _ .vmem, ⟨4, _⟩ => ⟨S5000x32, .f32⟩
  | .local _ .vmem, ⟨5, _⟩ => ⟨S20000x32, .f32⟩
  | .local _ .vmem, ⟨6, _⟩ => ⟨S20000x32, .f32⟩
  | .local _ .vmem, ⟨7, _⟩ => ⟨S20000x1, .f32⟩
  | .local _ .vmem, ⟨8, _⟩ => ⟨S20000x1, .f32⟩
  | .local _ .vmem, ⟨9, _⟩ => ⟨S20000x32, .f32⟩
  | .local _ .vmem, ⟨10, _⟩ => ⟨S20000x32, .f32⟩
  | .local _ .vmem, ⟨11, _⟩ => ⟨S20000x32, .f32⟩
  | .local _ .vmem, ⟨12, _⟩ => ⟨S20000x32, .f32⟩
  | .local _ .vmem, ⟨13, _⟩ => ⟨S1x32, .f32⟩
  | .local _ .vmem, ⟨14, _⟩ => ⟨S20000x32, .f32⟩
  | .local _ .vmem, ⟨15, _⟩ => ⟨S20000x32, .f32⟩
  | .local _ .vmem, ⟨16, _⟩ => ⟨S5000x32, .f32⟩
  | .local _ .vmem, ⟨17, _⟩ => ⟨S5000x32, .f32⟩
  | .local _ .vmem, ⟨18, _⟩ => ⟨S32x16, .f32⟩
  | .local _ .vmem, ⟨19, _⟩ => ⟨S5000x16, .f32⟩
  | .local _ .vmem, ⟨20, _⟩ => ⟨S5000x16, .f32⟩
  | .local _ .vmem, ⟨21, _⟩ => ⟨S20000x16, .f32⟩
  | .local _ .vmem, ⟨22, _⟩ => ⟨S20000x16, .f32⟩
  | .local _ .vmem, ⟨23, _⟩ => ⟨S20000x1, .f32⟩
  | .local _ .vmem, ⟨24, _⟩ => ⟨S20000x1, .f32⟩
  | .local _ .vmem, ⟨25, _⟩ => ⟨S20000x16, .f32⟩
  | .local _ .vmem, ⟨26, _⟩ => ⟨S20000x16, .f32⟩
  | .local _ .vmem, ⟨27, _⟩ => ⟨S20000x16, .f32⟩
  | .local _ .vmem, ⟨28, _⟩ => ⟨S20000x16, .f32⟩
  | .local _ .vmem, ⟨29, _⟩ => ⟨S1x16, .f32⟩
  | .local _ .vmem, ⟨30, _⟩ => ⟨S20000x16, .f32⟩
  | .local _ .vmem, ⟨31, _⟩ => ⟨S20000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![165], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![165], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S20000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S20000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x32 : S20000x1.Broadcasts S20000x32
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  broadcasts_S20000x1_S20000x16 : S20000x1.Broadcasts S20000x16
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x16_S16x32_S5000x32_1_0_0_1_n_n_wf : DotDims.WF S5000x16 S16x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S3300000x32.size a
  hwx1_0 : ∀ i : grid1.Coords, EltTy.bits .f32 = 32 ∨ (Rect.block (s := S3300000x32) S20000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S3300000x1.size a
  hwx1_1 : ∀ i : grid1.Coords, EltTy.bits .f32 = 32 ∨ (Rect.block (s := S3300000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x32.size a ≤ S3300000x32.size a
  hwx1_2 : ∀ i : grid1.Coords, EltTy.bits .f32 = 32 ∨ (Rect.block (s := S3300000x32) S20000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x32.size a ≤ S100000x32.size a
  hwx2_2 : ∀ i : grid2.Coords, EltTy.bits .f32 = 32 ∨ (Rect.block (s := S100000x32) S20000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x16.size a ≤ S3300000x16.size a
  hwx4_0 : ∀ i : grid4.Coords, EltTy.bits .f32 = 32 ∨ (Rect.block (s := S3300000x16) S20000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x1.size a ≤ S3300000x1.size a
  hwx4_1 : ∀ i : grid4.Coords, EltTy.bits .f32 = 32 ∨ (Rect.block (s := S3300000x1) S20000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x16.size a ≤ S3300000x16.size a
  hwx4_2 : ∀ i : grid4.Coords, EltTy.bits .f32 = 32 ∨ (Rect.block (s := S3300000x16) S20000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x16.size a ≤ S100000x16.size a
  hwx5_0 : ∀ i : grid5.Coords, EltTy.bits .f32 = 32 ∨ (Rect.block (s := S100000x16) S20000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x16.size a ≤ S100000x16.size a
  hwx5_2 : ∀ i : grid5.Coords, EltTy.bits .f32 = 32 ∨ (Rect.block (s := S100000x16) S20000x16.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S20000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S20000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S20000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S20000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S20000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S20000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S20000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x16 : Shape := ⟨2, ![100000, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S3300000x16 : Shape := ⟨2, ![3300000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S16x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000, .f32⟩
  | .hbm, ⟨104, _⟩ => ⟨S3300000, .f32⟩
  | .hbm, ⟨105, _⟩ => ⟨S100000x16, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x16, .f32⟩
  | .hbm, ⟨115, _⟩ => ⟨S3300000x1, .f32⟩
  | .hbm, ⟨116, _⟩ => ⟨S3300000x16, .f32⟩
  | .hbm, ⟨117, _⟩ => ⟨S3300000x16, .f32⟩
  | .hbm, ⟨118, _⟩ => ⟨S_, .f32⟩
  | .hbm, ⟨119, _⟩ => ⟨S100000x16, .f32⟩
  | .hbm, ⟨120, _⟩ => ⟨S3300000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Spec.lean ====
/-
  The arithmetic of the two graph-convolution layers, one array at a time, over the extended reals.

  A layer is: a dense product with a weight matrix (each output entry a sum over the input features),
  a per-edge rescaling of the gathered rows by the edge's normalisation coefficient (one coefficient
  per edge, the same for every feature), and, after the edges' rows have been summed into their target
  nodes, the addition of a bias row (followed, in the first layer, by the positive part).  Each of these
  is stated here as ONE function of whole arrays, entry by entry, so that a tiled computation of it and
  an untiled one can both be compared with it.  The gather of rows and the sum into target nodes are
  the same operations on both sides and are not restated here.
-/
import Idealize.ShloMosaic.PureOps.Ideal
import Idealize.ShloMosaic.Lib.ValueIdx

noncomputable section

namespace Cert.Gcn

open Idealize.ShloMosaic Idealize.ShloMosaic.ValueIdx

/-- First layer's dense product: entry (r, c) is the sum over the 16 input features k of x(r, k) · w(k, c). -/
def lin1 (x : FVec Ideal ⟨2, ![100000, 16]⟩ .f32) (w : FVec Ideal ⟨2, ![16, 32]⟩ .f32) :
    FVec Ideal ⟨2, ![100000, 32]⟩ .f32 :=
  fun i => ∑ k : Fin 16, x (ix2 (i 0) k) * w (ix2 k (i 1))

/-- Second layer's dense product: entry (r, c) is the sum over the 32 hidden features k of h(r, k) · w(k, c). -/
def lin2 (h : FVec Ideal ⟨2, ![100000, 32]⟩ .f32) (w : FVec Ideal ⟨2, ![32, 16]⟩ .f32) :
    FVec Ideal ⟨2, ![100000, 16]⟩ .f32 :=
  fun i => ∑ k : Fin 32, h (ix2 (i 0) k) * w (ix2 k (i 1))

/-- Each edge's gathered row (32 features) times that edge's coefficient. -/
def scale32 (h : FVec Ideal ⟨2, ![3300000, 32]⟩ .f32) (s : FVec Ideal ⟨2, ![3300000, 1]⟩ .f32) :
    FVec Ideal ⟨2, ![3300000, 32]⟩ .f32 :=
  fun i => h i * s (ix2 (i 0) (0 : Fin 1))

/-- Each edge's gathered row (16 features) times that edge's coefficient. -/
def scale16 (h : FVec Ideal ⟨2, ![3300000, 16]⟩ .f32) (s : FVec Ideal ⟨2, ![3300000, 1]⟩ .f32) :
    FVec Ideal ⟨2, ![3300000, 16]⟩ .f32 :=
  fun i => h i * s (ix2 (i 0) (0 : Fin 1))

/-- The aggregated rows plus the bias row, then the positive part (the larger of the sum and zero). -/
def biasRelu32 (a : FVec Ideal ⟨2, ![100000, 32]⟩ .f32) (b : FVec Ideal ⟨2, ![1, 32]⟩ .f32) :
    FVec Ideal ⟨2, ![100000, 32]⟩ .f32 :=
  fun i => max (a i + b (ix2 (0 : Fin 1) (i 1))) (Ideal.ofBits .f32 0x00000000#32)

/-- The aggregated rows plus the bias row. -/
def bias16 (a : FVec Ideal ⟨2, ![100000, 16]⟩ .f32) (b : FVec Ideal ⟨2, ![1, 16]⟩ .f32) :
    FVec Ideal ⟨2, ![100000, 16]⟩ .f32 :=
  fun i => a i + b (ix2 (0 : Fin 1) (i 1))

end Cert.Gcn

end
-- ==== Proof.SpecNet.lean ====
/-
  The whole network as ONE function: two graph-convolution layers, the first followed by the positive part.

  A layer multiplies the node features by a weight matrix, gathers one row per edge (the edge's source node),
  rescales each gathered row by the edge's coefficient, sums the rows into the edges' target nodes and adds a
  bias row.  The gather of rows and the sum into target nodes are taken here as PARAMETERS (`gath…`, `scat…`):
  they are the same operations on both sides of the comparison, applied to arrays that are shown equal, and
  nothing is ever said about what they compute.  The coefficient column `nrm` and the two bias rows are
  parameters too; what is fixed is how the dense pieces of Spec.lean are composed around them.
-/
import proofs.«113800_j37022618091719_1_alg».proof.Proof.Spec

noncomputable section

namespace Cert.Gcn

open Idealize.ShloMosaic

/-- Layer 1: product with `w1`, gather, rescale by `nrm`, sum into targets, add `b1`, positive part;
    layer 2: product with `w2`, gather, rescale by the same `nrm`, sum into targets, add `b2`. -/
def gcn
    (gath32 : FVec Ideal ⟨2, ![100000, 32]⟩ .f32 → FVec Ideal ⟨2, ![3300000, 32]⟩ .f32)
    (scat32 : FVec Ideal ⟨2, ![3300000, 32]⟩ .f32 → FVec Ideal ⟨2, ![100000, 32]⟩ .f32)
    (gath16 : FVec Ideal ⟨2, ![100000, 16]⟩ .f32 → FVec Ideal ⟨2, ![3300000, 16]⟩ .f32)
    (scat16 : FVec Ideal ⟨2, ![3300000, 16]⟩ .f32 → FVec Ideal ⟨2, ![100000, 16]⟩ .f32)
    (nrm : FVec Ideal ⟨2, ![3300000, 1]⟩ .f32)
    (x : FVec Ideal ⟨2, ![100000, 16]⟩ .f32) (w1 : FVec Ideal ⟨2, ![16, 32]⟩ .f32) (b1 : FVec Ideal ⟨2, ![1, 32]⟩ .f32)
    (w2 : FVec Ideal ⟨2, ![32, 16]⟩ .f32) (b2 : FVec Ideal ⟨2, ![1, 16]⟩ .f32) :
    FVec Ideal ⟨2, ![100000, 16]⟩ .f32 :=
  bias16 (scat16 (scale16 (gath16 (lin2 (biasRelu32 (scat32 (scale32 (gath32 (lin1 x w1)) nrm)) b1) w2)) nrm)) b2

end Cert.Gcn

end
-- ==== Proof.ChainEntry.lean ====
/-
  The tiled program's result, read back through its segments.

  The program alternates stretches of whole-array operations with six tiled regions.  Its result array is what
  the last region leaves; that region's two input arrays are what the stretch before it computed from what the
  region before that left; and so on down to the arguments.  This module and Chain.lean walk that descent once: this one names the pieces and reads what the stretches before the first region leave; Chain.lean goes on from there through the six regions.  At every
  boundary it states, for each array still needed later, what the array holds as a closed expression of the
  arguments: an array a segment does not write is as the segment found it, an array a stretch computes is that
  operation of its operands, and an array a region writes is the whole-array function of Spec.lean applied to
  the region's input arrays (the six facts taken here as hypotheses).  The edge lists (sources and targets, each
  followed by every node once for the self loops), the degree of each node, its inverse square root where the
  degree is positive, and the product of the two end points' values as each edge's coefficient are named once
  and never opened; so are the gathers of rows by source node and the sums of rows into target nodes.
-/
import proofs.«113800_j37022618091719_1_alg».proof.Proof.Gen.KernelIdeal.Frame
import proofs.«113800_j37022618091719_1_alg».proof.Proof.SpecNet
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## The pieces the stretches compute, as functions of the edge array -/

/-- Row 0 of the edge array (the sources), then every node once. -/
def srcI (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Row 1 of the edge array (the targets), then every node once. -/
def dstI (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Node numbers as a gather takes them: a negative number counts from the end (100000 is added), as a column. -/
def wrapIdx (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- Node numbers as a sum into targets takes them: as a column. -/
def colIdx (s : IVec S3300000 32) : IVec S3300000x1 32 :=
  broadcastInDim S3300000x1 ![0] bcast_S3300000_S3300000x1_0 s

/-- Each node's degree: a one summed into the node for every edge that targets it. -/
def degV (e : IVec S2x3200000 32) : FVec Ideal S100000 .f32 :=
  Host.scatterAdd scatter_S100000_S3300000x1_S3300000_n_0_0_1
    (broadcastInDim S100000 ![] bcast_S_S100000 (constant (F := Ideal) S_ .f32 0x00000000#32))
    (colIdx (dstI e))
    (broadcastInDim S3300000 ![] bcast_S_S3300000 (constant (F := Ideal) S_ .f32 0x3F800000#32))

/-- The inverse square root of the degree where the degree is positive, zero elsewhere. -/
def dinvV (e : IVec S2x3200000 32) : FVec Ideal S100000 .f32 :=
  select (cmpf (F := Ideal) .ogt (degV e) (broadcastInDim S100000 ![] bcast_S_S100000 (constant (F := Ideal) S_ .f32 0x00000000#32)))
    (Host.rsqrt (degV e))
    (broadcastInDim S100000 ![] bcast_S_S100000 (id (constant (F := Ideal) S_ .f32 0x00000000#32)))

/-- Each edge's coefficient: the product of its two end points' values. -/
def normV (e : IVec S2x3200000 32) : FVec Ideal S3300000 .f32 :=
  mulf (Host.gather gather_S100000_S3300000x1_S3300000_n_0_n_n_0_1_1 (dinvV e) (wrapIdx (srcI e)))
    (Host.gather gather_S100000_S3300000x1_S3300000_n_0_n_n_0_1_1 (dinvV e) (wrapIdx (dstI e)))

/-- The coefficients as a column. -/
def norm2 (e : IVec S2x3200000 32) : FVec Ideal S3300000x1 .f32 :=
  shapeCast S3300000x1 (normV e) shapeCasts_S3300000_S3300000x1

/-- One row of 32 features per edge: the row of the edge's source node. -/
def gath32 (e : IVec S2x3200000 32) (h : FVec Ideal S100000x32 .f32) : FVec Ideal S3300000x32 .f32 :=
  Host.gather gather_S100000x32_S3300000x1_S3300000x32_1_0_n_n_0_1_132 h (wrapIdx (srcI e))

/-- The edges' rows of 32 features summed into their target nodes, from zero. -/
def scat32 (e : IVec S2x3200000 32) (u : FVec Ideal S3300000x32 .f32) : FVec Ideal S100000x32 .f32 :=
  Host.scatterAdd scatter_S100000x32_S3300000x1_S3300000x32_1_0_0_1
    (broadcastInDim S100000x32 ![] bcast_S_S100000x32 (constant (F := Ideal) S_ .f32 0x00000000#32)) (colIdx (dstI e)) u

/-- One row of 16 features per edge: the row of the edge's source node. -/
def gath16 (e : IVec S2x3200000 32) (h : FVec Ideal S100000x16 .f32) : FVec Ideal S3300000x16 .f32 :=
  Host.gather gather_S100000x16_S3300000x1_S3300000x16_1_0_n_n_0_1_116 h (wrapIdx (srcI e))

/-- The edges' rows of 16 features summed into their target nodes, from zero. -/
def scat16 (e : IVec S2x3200000 32) (u : FVec Ideal S3300000x16 .f32) : FVec Ideal S100000x16 .f32 :=
  Host.scatterAdd scatter_S100000x16_S3300000x1_S3300000x16_1_0_0_1
    (broadcastInDim S100000x16 ![] bcast_S_S100000x16 (constant (F := Ideal) S_ .f32 0x00000000#32)) (colIdx (dstI e)) u

/-- The first bias as a row. -/
def row32 (b : FVec Ideal S32 .f32) : FVec Ideal S1x32 .f32 := shapeCast S1x32 b shapeCasts_S32_S1x32

/-- The second bias as a row. -/
def row16 (b : FVec Ideal S16 .f32) : FVec Ideal S1x16 .f32 := shapeCast S1x16 b shapeCasts_S16_S1x16

variable (m : (ℓ : Loc nD τ sig) → Buf (Elt Ideal) ℓ) (ρ : Dev nD → PrngReg)

/-- A stretch leaves an array that none of its operations writes as it found it. -/
macro "host_keeps" : tactic => `(tactic| (
  refine StableHlo.after_of_forall_not_mem _ _ (List.forall_iff_forall_mem.mp ?_)
  simp only [hostOps0, hostOps0_1, hostOps0_2, hostOps1, hostOps2, hostOps4, hostOps5,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Before the first region: the edge lists, the coefficients, the arguments -/

theorem v5_1 (c : Dev nD) : W1 m ρ c (Proc.devRef .tc main_v5) = srcI (m ((c : Thread nD τ).loc main_arg5)) := by
  dsimp only [W1, hostOps0]; after_results; rfl
theorem v6_1 (c : Dev nD) : W1 m ρ c (Proc.devRef .tc main_v6) = dstI (m ((c : Thread nD τ).loc main_arg5)) := by
  dsimp only [W1, hostOps0]; after_results; rfl
theorem v12_1 (c : Dev nD) : W1 m ρ c (Proc.devRef .tc main_v12)
    = cmpf (F := Ideal) .ogt (degV (m ((c : Thread nD τ).loc main_arg5))) (broadcastInDim S100000 ![] bcast_S_S100000 (constant (F := Ideal) S_ .f32 0x00000000#32)) := by
  dsimp only [W1, hostOps0]; after_results; rfl
theorem v13_1 (c : Dev nD) : W1 m ρ c (Proc.devRef .tc main_v13) = Host.rsqrt (degV (m ((c : Thread nD τ).loc main_arg5))) := by
  dsimp only [W1, hostOps0]; after_results; rfl
theorem cst2_1 (c : Dev nD) : W1 m ρ c (Proc.devRef .tc main_cst_2) = constant (F := Ideal) S_ .f32 0x00000000#32 := by
  dsimp only [W1, hostOps0]; after_results

/-- What the call that picks the inverse square root leaves, over ANY contents `Wv` the stretch starts from (so that
    nothing about the earlier stretches is opened while this one is read). -/
theorem where_read (Wv : Valuation τ sig (Elt Ideal)) :
    StableHlo.after hostOps0_1 Wv (Proc.devRef .tc main_v14)
      = select (Wv (Proc.devRef .tc main_v12) : IVec S100000 1) (Wv (Proc.devRef .tc main_v13) : FVec Ideal S100000 .f32)
          (broadcastInDim S100000 ![] bcast_S_S100000 (id (Wv (Proc.devRef .tc main_cst_2) : FVec Ideal S_ .f32))) := by
  dsimp only [hostOps0_1]; after_results; rfl

theorem v14_2 (c : Dev nD) : W2 m ρ c (Proc.devRef .tc main_v14) = dinvV (m ((c : Thread nD τ).loc main_arg5)) :=
  (where_read (W1 m ρ c)).trans (by rw [v12_1, v13_1, cst2_1]; rfl)
theorem v5_2 (c : Dev nD) : W2 m ρ c (Proc.devRef .tc main_v5) = srcI (m ((c : Thread nD τ).loc main_arg5)) :=
  (by host_keeps : W2 m ρ c (Proc.devRef .tc main_v5) = W1 m ρ c (Proc.devRef .tc main_v5)).trans (v5_1 m ρ c)
theorem v6_2 (c : Dev nD) : W2 m ρ c (Proc.devRef .tc main_v6) = dstI (m ((c : Thread nD τ).loc main_arg5)) :=
  (by host_keeps : W2 m ρ c (Proc.devRef .tc main_v6) = W1 m ρ c (Proc.devRef .tc main_v6)).trans (v6_1 m ρ c)

/-- The coefficient column from the per-node values `d` and the two index lists. -/
def normOf (d : FVec Ideal S100000 .f32) (s t : IVec S3300000 32) : FVec Ideal S3300000x1 .f32 :=
  shapeCast S3300000x1
    (mulf (Host.gather gather_S100000_S3300000x1_S3300000_n_0_n_n_0_1_1 d (wrapIdx s))
      (Host.gather gather_S100000_S3300000x1_S3300000_n_0_n_n_0_1_1 d (wrapIdx t)))
    shapeCasts_S3300000_S3300000x1

/-- What the stretch before the first region leaves in the coefficient column, over ANY contents it starts from. -/
theorem norm_read (Wv : Valuation τ sig (Elt Ideal)) :
    StableHlo.after hostOps0_2 Wv (Proc.devRef .tc main_v30)
      = normOf (Wv (Proc.devRef .tc main_v14)) (Wv (Proc.devRef .tc main_v5)) (Wv (Proc.devRef .tc main_v6)) := by
  dsimp only [hostOps0_2]; after_results_simp; rfl

theorem v30_3 (c : Dev nD) : W3 m ρ c (Proc.devRef .tc main_v30) = norm2 (m ((c : Thread nD τ).loc main_arg5)) :=
  (norm_read (W2 m ρ c)).trans (by rw [v14_2, v5_2, v6_2]; rfl)
theorem v5_3 (c : Dev nD) : W3 m ρ c (Proc.devRef .tc main_v5) = srcI (m ((c : Thread nD τ).loc main_arg5)) :=
  (by host_keeps : W3 m ρ c (Proc.devRef .tc main_v5) = W2 m ρ c (Proc.devRef .tc main_v5)).trans (v5_2 m ρ c)
theorem v6_3 (c : Dev nD) : W3 m ρ c (Proc.devRef .tc main_v6) = dstI (m ((c : Thread nD τ).loc main_arg5)) :=
  (by host_keeps : W3 m ρ c (Proc.devRef .tc main_v6) = W2 m ρ c (Proc.devRef .tc main_v6)).trans (v6_2 m ρ c)

theorem arg0_3 (c : Dev nD) : W3 m ρ c (Proc.devRef .tc main_arg0) = m ((c : Thread nD τ).loc main_arg0) :=
  (by host_keeps : W3 m ρ c (Proc.devRef .tc main_arg0) = W2 m ρ c (Proc.devRef .tc main_arg0)).trans
    ((by host_keeps : W2 m ρ c (Proc.devRef .tc main_arg0) = W1 m ρ c (Proc.devRef .tc main_arg0)).trans
      (by host_keeps : W1 m ρ c (Proc.devRef .tc main_arg0) = W0 m ρ c (Proc.devRef .tc main_arg0)))
theorem arg1_3 (c : Dev nD) : W3 m ρ c (Proc.devRef .tc main_arg1) = m ((c : Thread nD τ).loc main_arg1) :=
  (by host_keeps : W3 m ρ c (Proc.devRef .tc main_arg1) = W2 m ρ c (Proc.devRef .tc main_arg1)).trans
    ((by host_keeps : W2 m ρ c (Proc.devRef .tc main_arg1) = W1 m ρ c (Proc.devRef .tc main_arg1)).trans
      (by host_keeps : W1 m ρ c (Proc.devRef .tc main_arg1) = W0 m ρ c (Proc.devRef .tc main_arg1)))
theorem arg2_3 (c : Dev nD) : W3 m ρ c (Proc.devRef .tc main_arg2) = m ((c : Thread nD τ).loc main_arg2) :=
  (by host_keeps : W3 m ρ c (Proc.devRef .tc main_arg2) = W2 m ρ c (Proc.devRef .tc main_arg2)).trans
    ((by host_keeps : W2 m ρ c (Proc.devRef .tc main_arg2) = W1 m ρ c (Proc.devRef .tc main_arg2)).trans
      (by host_keeps : W1 m ρ c (Proc.devRef .tc main_arg2) = W0 m ρ c (Proc.devRef .tc main_arg2)))
theorem arg3_3 (c : Dev nD) : W3 m ρ c (Proc.devRef .tc main_arg3) = m ((c : Thread nD τ).loc main_arg3) :=
  (by host_keeps : W3 m ρ c (Proc.devRef .tc main_arg3) = W2 m ρ c (Proc.devRef .tc main_arg3)).trans
    ((by host_keeps : W2 m ρ c (Proc.devRef .tc main_arg3) = W1 m ρ c (Proc.devRef .tc main_arg3)).trans
      (by host_keeps : W1 m ρ c (Proc.devRef .tc main_arg3) = W0 m ρ c (Proc.devRef .tc main_arg3)))
theorem arg4_3 (c : Dev nD) : W3 m ρ c (Proc.devRef .tc main_arg4) = m ((c : Thread nD τ).loc main_arg4) :=
  (by host_keeps : W3 m ρ c (Proc.devRef .tc main_arg4) = W2 m ρ c (Proc.devRef .tc main_arg4)).trans
    ((by host_keeps : W2 m ρ c (Proc.devRef .tc main_arg4) = W1 m ρ c (Proc.devRef .tc main_arg4)).trans
      (by host_keeps : W1 m ρ c (Proc.devRef .tc main_arg4) = W0 m ρ c (Proc.devRef .tc main_arg4)))

end Cert.KernelIdeal.Chain

end
-- ==== Proof.Chain.lean ====
/-
  The tiled program's result, read back through its six regions.

  ChainEntry.lean names the pieces and says what the arrays hold when the first region is entered.  From there:
  an array a region or a stretch does not write is as it was found; an array a stretch computes is that operation
  of its operands; an array a region writes is the whole-array function of Spec.lean applied to the region's input
  arrays (the six facts taken here as hypotheses, proved region by region in their own modules).  The last
  theorem states the result array as SpecNet.lean's network of the arguments.
-/
import proofs.«113800_j37022618091719_1_alg».proof.Proof.ChainEntry

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What each region's output array holds, as the six hypotheses say, at a region-entry valuation `V` -/

variable
  (h0 : ∀ (V : (c : Dev nD) → (b : Ref sig .tc) → Buf (Elt Ideal) ((c : Thread nD τ).loc b)) (c : Dev nD),
    (dat0 (F := Ideal) V c).arrAt 2 cfg0.N = Cert.Gcn.lin1 (V c main_arg0) (V c main_arg1))
  (h1 : ∀ (V : (c : Dev nD) → (b : Ref sig .tc) → Buf (Elt Ideal) ((c : Thread nD τ).loc b)) (c : Dev nD),
    (dat1 (F := Ideal) V c).arrAt 2 cfg1.N = Cert.Gcn.scale32 (V c main_v38) (V c main_v30))
  (h2 : ∀ (V : (c : Dev nD) → (b : Ref sig .tc) → Buf (Elt Ideal) ((c : Thread nD τ).loc b)) (c : Dev nD),
    (dat2 (F := Ideal) V c).arrAt 2 cfg2.N = Cert.Gcn.biasRelu32 (V c main_v42) (V c main_v43))
  (h3 : ∀ (V : (c : Dev nD) → (b : Ref sig .tc) → Buf (Elt Ideal) ((c : Thread nD τ).loc b)) (c : Dev nD),
    (dat3 (F := Ideal) V c).arrAt 2 cfg3.N = Cert.Gcn.lin2 (V c main_v44) (V c main_arg3))
  (h4 : ∀ (V : (c : Dev nD) → (b : Ref sig .tc) → Buf (Elt Ideal) ((c : Thread nD τ).loc b)) (c : Dev nD),
    (dat4 (F := Ideal) V c).arrAt 2 cfg4.N = Cert.Gcn.scale16 (V c main_v52) (V c main_v30))
  (h5 : ∀ (V : (c : Dev nD) → (b : Ref sig .tc) → Buf (Elt Ideal) ((c : Thread nD τ).loc b)) (c : Dev nD),
    (dat5 (F := Ideal) V c).arrAt 2 cfg5.N = Cert.Gcn.bias16 (V c main_v56) (V c main_v57))

/-! ## Region 0 (the first dense product) and the gather after it -/

include h0 in
theorem v31_4 (c : Dev nD) : W4 m ρ c (Proc.devRef .tc main_v31)
    = Cert.Gcn.lin1 (m ((c : Thread nD τ).loc main_arg0)) (m ((c : Thread nD τ).loc main_arg1)) :=
  ((W4_arr m ρ c 2).trans (h0 (V3 m ρ) c)).trans (congrArg₂ Cert.Gcn.lin1 (arg0_3 m ρ c) (arg1_3 m ρ c))
theorem v5_4 (c : Dev nD) : W4 m ρ c (Proc.devRef .tc main_v5) = srcI (m ((c : Thread nD τ).loc main_arg5)) :=
  (W4_of_ne m ρ c main_v5 (by decide)).trans (v5_3 m ρ c)
theorem v6_4 (c : Dev nD) : W4 m ρ c (Proc.devRef .tc main_v6) = dstI (m ((c : Thread nD τ).loc main_arg5)) :=
  (W4_of_ne m ρ c main_v6 (by decide)).trans (v6_3 m ρ c)
theorem v30_4 (c : Dev nD) : W4 m ρ c (Proc.devRef .tc main_v30) = norm2 (m ((c : Thread nD τ).loc main_arg5)) :=
  (W4_of_ne m ρ c main_v30 (by decide)).trans (v30_3 m ρ c)
theorem arg2_4 (c : Dev nD) : W4 m ρ c (Proc.devRef .tc main_arg2) = m ((c : Thread nD τ).loc main_arg2) :=
  (W4_of_ne m ρ c main_arg2 (by decide)).trans (arg2_3 m ρ c)
theorem arg3_4 (c : Dev nD) : W4 m ρ c (Proc.devRef .tc main_arg3) = m ((c : Thread nD τ).loc main_arg3) :=
  (W4_of_ne m ρ c main_arg3 (by decide)).trans (arg3_3 m ρ c)
theorem arg4_4 (c : Dev nD) : W4 m ρ c (Proc.devRef .tc main_arg4) = m ((c : Thread nD τ).loc main_arg4) :=
  (W4_of_ne m ρ c main_arg4 (by decide)).trans (arg4_3 m ρ c)

include h0 in
theorem v38_5 (c : Dev nD) : W5 m ρ c (Proc.devRef .tc main_v38)
    = gath32 (m ((c : Thread nD τ).loc main_arg5)) (Cert.Gcn.lin1 (m ((c : Thread nD τ).loc main_arg0)) (m ((c : Thread nD τ).loc main_arg1))) := by
  have h : W5 m ρ c (Proc.devRef .tc main_v38)
      = Host.gather gather_S100000x32_S3300000x1_S3300000x32_1_0_n_n_0_1_132 (W4 m ρ c (Proc.devRef .tc main_v31)) (wrapIdx (W4 m ρ c (Proc.devRef .tc main_v5))) := by
    dsimp only [W5, hostOps1]; after_results; rfl
  rw [h, v31_4 m ρ h0, v5_4]; rfl
theorem v5_5 (c : Dev nD) : W5 m ρ c (Proc.devRef .tc main_v5) = srcI (m ((c : Thread nD τ).loc main_arg5)) :=
  (by host_keeps : W5 m ρ c (Proc.devRef .tc main_v5) = W4 m ρ c (Proc.devRef .tc main_v5)).trans (v5_4 m ρ c)
theorem v6_5 (c : Dev nD) : W5 m ρ c (Proc.devRef .tc main_v6) = dstI (m ((c : Thread nD τ).loc main_arg5)) :=
  (by host_keeps : W5 m ρ c (Proc.devRef .tc main_v6) = W4 m ρ c (Proc.devRef .tc main_v6)).trans (v6_4 m ρ c)
theorem v30_5 (c : Dev nD) : W5 m ρ c (Proc.devRef .tc main_v30) = norm2 (m ((c : Thread nD τ).loc main_arg5)) :=
  (by host_keeps : W5 m ρ c (Proc.devRef .tc main_v30) = W4 m ρ c (Proc.devRef .tc main_v30)).trans (v30_4 m ρ c)
theorem arg2_5 (c : Dev nD) : W5 m ρ c (Proc.devRef .tc main_arg2) = m ((c : Thread nD τ).loc main_arg2) :=
  (by host_keeps : W5 m ρ c (Proc.devRef .tc main_arg2) = W4 m ρ c (Proc.devRef .tc main_arg2)).trans (arg2_4 m ρ c)
theorem arg3_5 (c : Dev nD) : W5 m ρ c (Proc.devRef .tc main_arg3) = m ((c : Thread nD τ).loc main_arg3) :=
  (by host_keeps : W5 m ρ c (Proc.devRef .tc main_arg3) = W4 m ρ c (Proc.devRef .tc main_arg3)).trans (arg3_4 m ρ c)
theorem arg4_5 (c : Dev nD) : W5 m ρ c (Proc.devRef .tc main_arg4) = m ((c : Thread nD τ).loc main_arg4) :=
  (by host_keeps : W5 m ρ c (Proc.devRef .tc main_arg4) = W4 m ρ c (Proc.devRef .tc main_arg4)).trans (arg4_4 m ρ c)

/-! ## Region 1 (the first rescaling) and the sum into targets after it -/

include h0 h1 in
theorem v39_6 (c : Dev nD) : W6 m ρ c (Proc.devRef .tc main_v39)
    = Cert.Gcn.scale32 (gath32 (m ((c : Thread nD τ).loc main_arg5)) (Cert.Gcn.lin1 (m ((c : Thread nD τ).loc main_arg0)) (m ((c : Thread nD τ).loc main_arg1))))
        (norm2 (m ((c : Thread nD τ).loc main_arg5))) :=
  ((W6_arr m ρ c 2).trans (h1 (V5 m ρ) c)).trans (congrArg₂ Cert.Gcn.scale32 (v38_5 m ρ h0 c) (v30_5 m ρ c))
theorem v5_6 (c : Dev nD) : W6 m ρ c (Proc.devRef .tc main_v5) = srcI (m ((c : Thread nD τ).loc main_arg5)) :=
  (W6_of_ne m ρ c main_v5 (by decide)).trans (v5_5 m ρ c)
theorem v6_6 (c : Dev nD) : W6 m ρ c (Proc.devRef .tc main_v6) = dstI (m ((c : Thread nD τ).loc main_arg5)) :=
  (W6_of_ne m ρ c main_v6 (by decide)).trans (v6_5 m ρ c)
/-- The coefficient column is one of this region's INPUT arrays: the pipeline reads it and leaves it as it was. -/
theorem v30_6 (c : Dev nD) : W6 m ρ c (Proc.devRef .tc main_v30) = norm2 (m ((c : Thread nD τ).loc main_arg5)) :=
  ((W6_arr m ρ c 1).trans (((dat1 (V5 m ρ) c).arrAt_in 1 rfl _).trans (A_eq1 (V5 m ρ) c 1))).trans (v30_5 m ρ c)
theorem arg2_6 (c : Dev nD) : W6 m ρ c (Proc.devRef .tc main_arg2) = m ((c : Thread nD τ).loc main_arg2) :=
  (W6_of_ne m ρ c main_arg2 (by decide)).trans (arg2_5 m ρ c)
theorem arg3_6 (c : Dev nD) : W6 m ρ c (Proc.devRef .tc main_arg3) = m ((c : Thread nD τ).loc main_arg3) :=
  (W6_of_ne m ρ c main_arg3 (by decide)).trans (arg3_5 m ρ c)
theorem arg4_6 (c : Dev nD) : W6 m ρ c (Proc.devRef .tc main_arg4) = m ((c : Thread nD τ).loc main_arg4) :=
  (W6_of_ne m ρ c main_arg4 (by decide)).trans (arg4_5 m ρ c)

include h0 h1 in
theorem v42_7 (c : Dev nD) : W7 m ρ c (Proc.devRef .tc main_v42)
    = scat32 (m ((c : Thread nD τ).loc main_arg5))
        (Cert.Gcn.scale32 (gath32 (m ((c : Thread nD τ).loc main_arg5)) (Cert.Gcn.lin1 (m ((c : Thread nD τ).loc main_arg0)) (m ((c : Thread nD τ).loc main_arg1))))
          (norm2 (m ((c : Thread nD τ).loc main_arg5)))) := by
  have h : W7 m ρ c (Proc.devRef .tc main_v42)
      = Host.scatterAdd scatter_S100000x32_S3300000x1_S3300000x32_1_0_0_1
          (broadcastInDim S100000x32 ![] bcast_S_S100000x32 (constant (F := Ideal) S_ .f32 0x00000000#32))
          (colIdx (W6 m ρ c (Proc.devRef .tc main_v6))) (W6 m ρ c (Proc.devRef .tc main_v39)) := by
    dsimp only [W7, hostOps2]; after_results; rfl
  rw [h, v6_6, v39_6 m ρ h0 h1]; rfl
theorem v43_7 (c : Dev nD) : W7 m ρ c (Proc.devRef .tc main_v43) = row32 (m ((c : Thread nD τ).loc main_arg2)) := by
  have h : W7 m ρ c (Proc.devRef .tc main_v43) = row32 (W6 m ρ c (Proc.devRef .tc main_arg2)) := by
    dsimp only [W7, hostOps2]; after_results; rfl
  rw [h, arg2_6]
theorem v5_7 (c : Dev nD) : W7 m ρ c (Proc.devRef .tc main_v5) = srcI (m ((c : Thread nD τ).loc main_arg5)) :=
  (by host_keeps : W7 m ρ c (Proc.devRef .tc main_v5) = W6 m ρ c (Proc.devRef .tc main_v5)).trans (v5_6 m ρ c)
theorem v6_7 (c : Dev nD) : W7 m ρ c (Proc.devRef .tc main_v6) = dstI (m ((c : Thread nD τ).loc main_arg5)) :=
  (by host_keeps : W7 m ρ c (Proc.devRef .tc main_v6) = W6 m ρ c (Proc.devRef .tc main_v6)).trans (v6_6 m ρ c)
theorem v30_7 (c : Dev nD) : W7 m ρ c (Proc.devRef .tc main_v30) = norm2 (m ((c : Thread nD τ).loc main_arg5)) :=
  (by host_keeps : W7 m ρ c (Proc.devRef .tc main_v30) = W6 m ρ c (Proc.devRef .tc main_v30)).trans (v30_6 m ρ c)
theorem arg3_7 (c : Dev nD) : W7 m ρ c (Proc.devRef .tc main_arg3) = m ((c : Thread nD τ).loc main_arg3) :=
  (by host_keeps : W7 m ρ c (Proc.devRef .tc main_arg3) = W6 m ρ c (Proc.devRef .tc main_arg3)).trans (arg3_6 m ρ c)
theorem arg4_7 (c : Dev nD) : W7 m ρ c (Proc.devRef .tc main_arg4) = m ((c : Thread nD τ).loc main_arg4) :=
  (by host_keeps : W7 m ρ c (Proc.devRef .tc main_arg4) = W6 m ρ c (Proc.devRef .tc main_arg4)).trans (arg4_6 m ρ c)

/-! ## Regions 2 and 3 (bias and positive part; the second dense product), with no stretch between them -/

/-- The first layer's activations, as a function of the arguments. -/
def act1 (x : FVec Ideal S100000x16 .f32) (w1 : FVec Ideal S16x32 .f32) (b1 : FVec Ideal S32 .f32) (e : IVec S2x3200000 32) :
    FVec Ideal S100000x32 .f32 :=
  Cert.Gcn.biasRelu32 (scat32 e (Cert.Gcn.scale32 (gath32 e (Cert.Gcn.lin1 x w1)) (norm2 e))) (row32 b1)

include h0 h1 h2 in
theorem v44_8 (c : Dev nD) : W8 m ρ c (Proc.devRef .tc main_v44)
    = act1 (m ((c : Thread nD τ).loc main_arg0)) (m ((c : Thread nD τ).loc main_arg1)) (m ((c : Thread nD τ).loc main_arg2)) (m ((c : Thread nD τ).loc main_arg5)) :=
  ((W8_arr m ρ c 2).trans (h2 (V7 m ρ) c)).trans (congrArg₂ Cert.Gcn.biasRelu32 (v42_7 m ρ h0 h1 c) (v43_7 m ρ c))
theorem v5_8 (c : Dev nD) : W8 m ρ c (Proc.devRef .tc main_v5) = srcI (m ((c : Thread nD τ).loc main_arg5)) :=
  (W8_of_ne m ρ c main_v5 (by decide)).trans (v5_7 m ρ c)
theorem v6_8 (c : Dev nD) : W8 m ρ c (Proc.devRef .tc main_v6) = dstI (m ((c : Thread nD τ).loc main_arg5)) :=
  (W8_of_ne m ρ c main_v6 (by decide)).trans (v6_7 m ρ c)
theorem v30_8 (c : Dev nD) : W8 m ρ c (Proc.devRef .tc main_v30) = norm2 (m ((c : Thread nD τ).loc main_arg5)) :=
  (W8_of_ne m ρ c main_v30 (by decide)).trans (v30_7 m ρ c)
theorem arg3_8 (c : Dev nD) : W8 m ρ c (Proc.devRef .tc main_arg3) = m ((c : Thread nD τ).loc main_arg3) :=
  (W8_of_ne m ρ c main_arg3 (by decide)).trans (arg3_7 m ρ c)
theorem arg4_8 (c : Dev nD) : W8 m ρ c (Proc.devRef .tc main_arg4) = m ((c : Thread nD τ).loc main_arg4) :=
  (W8_of_ne m ρ c main_arg4 (by decide)).trans (arg4_7 m ρ c)

include h0 h1 h2 h3 in
theorem v45_9 (c : Dev nD) : W9 m ρ c (Proc.devRef .tc main_v45)
    = Cert.Gcn.lin2 (act1 (m ((c : Thread nD τ).loc main_arg0)) (m ((c : Thread nD τ).loc main_arg1)) (m ((c : Thread nD τ).loc main_arg2)) (m ((c : Thread nD τ).loc main_arg5)))
        (m ((c : Thread nD τ).loc main_arg3)) :=
  ((W9_arr m ρ c 2).trans (h3 (V8 m ρ) c)).trans (congrArg₂ Cert.Gcn.lin2 (v44_8 m ρ h0 h1 h2 c) (arg3_8 m ρ c))
theorem v5_9 (c : Dev nD) : W9 m ρ c (Proc.devRef .tc main_v5) = srcI (m ((c : Thread nD τ).loc main_arg5)) :=
  (W9_of_ne m ρ c main_v5 (by decide)).trans (v5_8 m ρ c)
theorem v6_9 (c : Dev nD) : W9 m ρ c (Proc.devRef .tc main_v6) = dstI (m ((c : Thread nD τ).loc main_arg5)) :=
  (W9_of_ne m ρ c main_v6 (by decide)).trans (v6_8 m ρ c)
theorem v30_9 (c : Dev nD) : W9 m ρ c (Proc.devRef .tc main_v30) = norm2 (m ((c : Thread nD τ).loc main_arg5)) :=
  (W9_of_ne m ρ c main_v30 (by decide)).trans (v30_8 m ρ c)
theorem arg4_9 (c : Dev nD) : W9 m ρ c (Proc.devRef .tc main_arg4) = m ((c : Thread nD τ).loc main_arg4) :=
  (W9_of_ne m ρ c main_arg4 (by decide)).trans (arg4_8 m ρ c)

/-! ## The second gather, region 4 (the second rescaling), the second sum, region 5 (the second bias) -/

/-- The second layer's dense product, as a function of the arguments. -/
def lin2Of (x : FVec Ideal S100000x16 .f32) (w1 : FVec Ideal S16x32 .f32) (b1 : FVec Ideal S32 .f32) (w2 : FVec Ideal S32x16 .f32)
    (e : IVec S2x3200000 32) : FVec Ideal S100000x16 .f32 :=
  Cert.Gcn.lin2 (act1 x w1 b1 e) w2

include h0 h1 h2 h3 in
theorem v52_10 (c : Dev nD) : W10 m ρ c (Proc.devRef .tc main_v52)
    = gath16 (m ((c : Thread nD τ).loc main_arg5))
        (lin2Of (m ((c : Thread nD τ).loc main_arg0)) (m ((c : Thread nD τ).loc main_arg1)) (m ((c : Thread nD τ).loc main_arg2)) (m ((c : Thread nD τ).loc main_arg3)) (m ((c : Thread nD τ).loc main_arg5))) := by
  have h : W10 m ρ c (Proc.devRef .tc main_v52)
      = Host.gather gather_S100000x16_S3300000x1_S3300000x16_1_0_n_n_0_1_116 (W9 m ρ c (Proc.devRef .tc main_v45)) (wrapIdx (W9 m ρ c (Proc.devRef .tc main_v5))) := by
    dsimp only [W10, hostOps4]; after_results; rfl
  rw [h, v45_9 m ρ h0 h1 h2 h3, v5_9]; rfl
theorem v6_10 (c : Dev nD) : W10 m ρ c (Proc.devRef .tc main_v6) = dstI (m ((c : Thread nD τ).loc main_arg5)) :=
  (by host_keeps : W10 m ρ c (Proc.devRef .tc main_v6) = W9 m ρ c (Proc.devRef .tc main_v6)).trans (v6_9 m ρ c)
theorem v30_10 (c : Dev nD) : W10 m ρ c (Proc.devRef .tc main_v30) = norm2 (m ((c : Thread nD τ).loc main_arg5)) :=
  (by host_keeps : W10 m ρ c (Proc.devRef .tc main_v30) = W9 m ρ c (Proc.devRef .tc main_v30)).trans (v30_9 m ρ c)
theorem arg4_10 (c : Dev nD) : W10 m ρ c (Proc.devRef .tc main_arg4) = m ((c : Thread nD τ).loc main_arg4) :=
  (by host_keeps : W10 m ρ c (Proc.devRef .tc main_arg4) = W9 m ρ c (Proc.devRef .tc main_arg4)).trans (arg4_9 m ρ c)

include h0 h1 h2 h3 h4 in
theorem v53_11 (c : Dev nD) : W11 m ρ c (Proc.devRef .tc main_v53)
    = Cert.Gcn.scale16 (gath16 (m ((c : Thread nD τ).loc main_arg5))
          (lin2Of (m ((c : Thread nD τ).loc main_arg0)) (m ((c : Thread nD τ).loc main_arg1)) (m ((c : Thread nD τ).loc main_arg2)) (m ((c : Thread nD τ).loc main_arg3)) (m ((c : Thread nD τ).loc main_arg5))))
        (norm2 (m ((c : Thread nD τ).loc main_arg5))) :=
  ((W11_arr m ρ c 2).trans (h4 (V10 m ρ) c)).trans (congrArg₂ Cert.Gcn.scale16 (v52_10 m ρ h0 h1 h2 h3 c) (v30_10 m ρ c))
theorem v6_11 (c : Dev nD) : W11 m ρ c (Proc.devRef .tc main_v6) = dstI (m ((c : Thread nD τ).loc main_arg5)) :=
  (W11_of_ne m ρ c main_v6 (by decide)).trans (v6_10 m ρ c)
theorem arg4_11 (c : Dev nD) : W11 m ρ c (Proc.devRef .tc main_arg4) = m ((c : Thread nD τ).loc main_arg4) :=
  (W11_of_ne m ρ c main_arg4 (by decide)).trans (arg4_10 m ρ c)

include h0 h1 h2 h3 h4 in
theorem v56_12 (c : Dev nD) : W12 m ρ c (Proc.devRef .tc main_v56)
    = scat16 (m ((c : Thread nD τ).loc main_arg5))
        (Cert.Gcn.scale16 (gath16 (m ((c : Thread nD τ).loc main_arg5))
            (lin2Of (m ((c : Thread nD τ).loc main_arg0)) (m ((c : Thread nD τ).loc main_arg1)) (m ((c : Thread nD τ).loc main_arg2)) (m ((c : Thread nD τ).loc main_arg3)) (m ((c : Thread nD τ).loc main_arg5))))
          (norm2 (m ((c : Thread nD τ).loc main_arg5)))) := by
  have h : W12 m ρ c (Proc.devRef .tc main_v56)
      = Host.scatterAdd scatter_S100000x16_S3300000x1_S3300000x16_1_0_0_1
          (broadcastInDim S100000x16 ![] bcast_S_S100000x16 (constant (F := Ideal) S_ .f32 0x00000000#32))
          (colIdx (W11 m ρ c (Proc.devRef .tc main_v6))) (W11 m ρ c (Proc.devRef .tc main_v53)) := by
    dsimp only [W12, hostOps5]; after_results; rfl
  rw [h, v6_11, v53_11 m ρ h0 h1 h2 h3 h4]; rfl
theorem v57_12 (c : Dev nD) : W12 m ρ c (Proc.devRef .tc main_v57) = row16 (m ((c : Thread nD τ).loc main_arg4)) := by
  have h : W12 m ρ c (Proc.devRef .tc main_v57) = row16 (W11 m ρ c (Proc.devRef .tc main_arg4)) := by
    dsimp only [W12, hostOps5]; after_results; rfl
  rw [h, arg4_11]

/-! ## The result -/

include h0 h1 h2 h3 h4 h5 in
/-- THE RESULT ARRAY after the last region is the network of SpecNet.lean: the two layers of Spec.lean's dense
    pieces around this program's gathers, sums into targets, coefficient column and bias rows. -/
theorem kernel_value (c : Dev nD) : W13 m ρ c (Proc.devRef .tc main_v58)
    = Cert.Gcn.gcn (gath32 (m ((c : Thread nD τ).loc main_arg5))) (scat32 (m ((c : Thread nD τ).loc main_arg5)))
        (gath16 (m ((c : Thread nD τ).loc main_arg5))) (scat16 (m ((c : Thread nD τ).loc main_arg5)))
        (norm2 (m ((c : Thread nD τ).loc main_arg5)))
        (m ((c : Thread nD τ).loc main_arg0)) (m ((c : Thread nD τ).loc main_arg1)) (row32 (m ((c : Thread nD τ).loc main_arg2)))
        (m ((c : Thread nD τ).loc main_arg3)) (row16 (m ((c : Thread nD τ).loc main_arg4))) :=
  ((W13_arr m ρ c 2).trans (h5 (V12 m ρ) c)).trans
    (congrArg₂ Cert.Gcn.bias16 (v56_12 m ρ h0 h1 h2 h3 h4 c) (v57_12 m ρ c))

end Cert.KernelIdeal.Chain

end
-- ==== Proof.Reg0.lean ====
import proofs.«113800_j37022618091719_1_alg».proof.Proof.Gen.KernelIdeal.Frame
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ### Region 0: 100000 rows in 20 blocks of 5000, each block of rows times the whole [16,32] weight matrix -/

/-- A block whose window starts at the block's own origin. -/
theorem origin_zero : (![0, 0] : Fin 2 → Nat) = fun _ => 0 := funext fun a => by fin_cases a <;> rfl

/-- In a block product, at entry (r, q) and contraction position k the left block is read at (r, k). -/
theorem blk0_lhs (r : Fin 5000) (q : Fin 32) (k : Fin 16) :
    dot_S5000x16_S16x32_S5000x32_1_0_0_1_n_n.lhsIdx (ix2 r q) ((contrEquiv1 dot_S5000x16_S16x32_S5000x32_1_0_0_1_n_n 16 rfl rfl).symm k) = ix2 r k := by
  funext ax; apply Fin.ext
  match ax with
  | ⟨0, _⟩ => simp [DotDims.lhsIdx, dot_S5000x16_S16x32_S5000x32_1_0_0_1_n_n]; rfl
  | ⟨1, _⟩ => simp [DotDims.lhsIdx, dot_S5000x16_S16x32_S5000x32_1_0_0_1_n_n]; exact contrEquiv1_symm_val dot_S5000x16_S16x32_S5000x32_1_0_0_1_n_n 16 rfl rfl k

/-- … and the weight matrix at (k, q). -/
theorem blk0_rhs (r : Fin 5000) (q : Fin 32) (k : Fin 16) :
    dot_S5000x16_S16x32_S5000x32_1_0_0_1_n_n.rhsIdx (ix2 r q) ((contrEquiv1 dot_S5000x16_S16x32_S5000x32_1_0_0_1_n_n 16 rfl rfl).symm k) = ix2 k q := by
  funext ax; apply Fin.ext
  match ax with
  | ⟨0, _⟩ => simp [DotDims.rhsIdx, dot_S5000x16_S16x32_S5000x32_1_0_0_1_n_n]; exact contrEquiv1_symm_val dot_S5000x16_S16x32_S5000x32_1_0_0_1_n_n 16 rfl rfl k
  | ⟨1, _⟩ => simp [DotDims.rhsIdx, dot_S5000x16_S16x32_S5000x32_1_0_0_1_n_n]; rfl

/-- What the body computes from a block of rows and the weight matrix, entry by entry: over the extended reals the
    change of float format is the identity and the product into the zero accumulator is the plain sum over the 16
    contracted features. -/
theorem blk0_pay_apply (x0 : Vec Ideal S5000x16 .f32) (x1 : Vec Ideal S16x32 .f32) (r : Fin 5000) (q : Fin 32) :
    k0_pay1 (F := Ideal) x0 x1 (ix2 r q) = ∑ k : Fin 16, x0 (ix2 r k) * x1 (ix2 k q) := by
  unfold k0_pay1
  simp only [matmul]
  refine (Ideal.matmul_constant_zero_apply dot_S5000x16_S16x32_S5000x32_1_0_0_1_n_n none _ _ (ix2 r q)).trans ?_
  rw [← Equiv.sum_comp (contrEquiv1 dot_S5000x16_S16x32_S5000x32_1_0_0_1_n_n 16 rfl rfl).symm]
  refine Finset.sum_congr rfl fun k _ => ?_
  rw [blk0_lhs, blk0_rhs]
  rfl

/-- One entry of the block product is the entry of the whole-array product in the row it lands in, as soon as the
    block's rows are those rows of the array and the weight block is the whole weight matrix. -/
theorem blk0_entry (x : FVec Ideal S100000x16 .f32) (w : FVec Ideal S16x32 .f32)
    (x0 : Vec Ideal S5000x16 .f32) (x1 : Vec Ideal S16x32 .f32) (r : Fin 5000) (q : Fin 32) (i : S100000x32.Idx)
    (hx : ∀ k : Fin 16, x0 (ix2 r k) = x (ix2 (i 0) k))
    (hw : ∀ k : Fin 16, x1 (ix2 k q) = w (ix2 k (i 1))) :
    k0_pay1 (F := Ideal) x0 x1 (ix2 r q) = Cert.Gcn.lin1 x w i := by
  rw [blk0_pay_apply]
  exact Finset.sum_congr rfl fun k _ => by rw [hx k, hw k]

/-- The three windows' block indices at every grid point: the row window moves with the output window (block t at
    point t), the weight window stays at the origin, and no window moves along the feature axis. -/
theorem blk0_index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole-array product of the two input arrays as the region finds them. -/
theorem blk0_written (c : Dev nD) (t : Fin cfg0.N) :
    (dat0 (F := Ideal) V c).flushed 2 t
      = ((cfg0.win 2).blk t).view.read (Elt Ideal) (Cert.Gcn.lin1 (V c main_arg0) (V c main_arg1)) := by
  show (cfg0.win 2).cut (grid0.coords t) ((dat0 (F := Ideal) V c).after 2 t) = _
  rw [after0_2]
  unfold out0_2
  rw [View.canon_unit_zero origin_zero]
  simp only [View.ld_unit_zero (S := S5000x16) origin_zero, View.ld_unit_zero (S := S16x32) origin_zero]
  obtain ⟨e0, e1, e2, e3, e4, e5⟩ := blk0_index_facts t
  funext j
  revert j
  show ∀ j : S5000x32.Idx, k0_pay1 (F := Ideal) (iblk0 V c 0 t) (iblk0 V c 1 t) j
      = Cert.Gcn.lin1 (V c main_arg0) (V c main_arg1) (((cfg0.win 2).blk t).view.emb j)
  intro j
  obtain ⟨r, q, rfl⟩ : ∃ (r : Fin 5000) (q : Fin 32), j = ix2 r q := ⟨j 0, j 1, eq_ix2 j⟩
  refine blk0_entry (V c main_arg0) (V c main_arg1) _ _ r q _ (fun k => ?_) (fun k => ?_)
  · show V c main_arg0 (((cfg0.win 0).blk t).view.emb (ix2 r k))
        = V c main_arg0 (ix2 ((((cfg0.win 2).blk t).view.emb (ix2 r q)) 0) k)
    refine congrArg _ ?_
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 16 + 1 * k.val = k.val; omega
  · show V c main_arg1 (((cfg0.win 1).blk t).view.emb (ix2 k q))
        = V c main_arg1 (ix2 k ((((cfg0.win 2).blk t).view.emb (ix2 r q)) 1))
    refine congrArg _ ?_
    funext a; apply Fin.ext
    match a with
    | ⟨0, _⟩ => show win0_1.index t (0 : Fin 2) * 16 + 1 * k.val = k.val; omega
    | ⟨1, _⟩ => show win0_1.index t (1 : Fin 2) * 32 + 1 * q.val = win0_2.index t (1 : Fin 2) * 32 + 1 * q.val; omega

/-- An entry of the output array lies in grid point t's block exactly when, on each axis, its coordinate lies in the
    block's range. -/
theorem blk0_mem (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v31).slice (win0_2.rect t)).set ↔ _
  rw [View.set_slice_whole, Rect.mem_set_unit]
  exact Iff.rfl

/-- The 20 blocks of 5000 rows tile the 100000 rows: row i is written by grid point i / 5000. -/
theorem blk0_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨e0, e1, e2, e3, e4, e5⟩ := blk0_index_facts t
  refine ⟨t, flush0_2 t, ?_⟩
  rw [blk0_mem]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 32 ≤ (i 1).val ∧ (i 1).val < win0_2.index t (1 : Fin 2) * 32 + 32
    omega

/-- After the region the output array holds the whole-array product of the two input arrays. -/
theorem final0 (c : Dev nD) :
    (dat0 (F := Ideal) V c).arrAt 2 cfg0.N = Cert.Gcn.lin1 (V c main_arg0) (V c main_arg1) :=
  (dat0 (F := Ideal) V c).arrAt_eq_of_cover 2 (Cert.Gcn.lin1 (V c main_arg0) (V c main_arg1))
    (fun t _ => blk0_written V c t) blk0_cover

end Cert.KernelIdeal.Regions

end
-- ==== Proof.Reg1.lean ====
import proofs.«113800_j37022618091719_1_alg».proof.Proof.Gen.KernelIdeal.Frame
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 1: every gathered row of 32 features times its edge's coefficient

  The region walks the 3300000 edges in 165 blocks of 20000 rows.  At each block it multiplies the block of
  gathered rows, entry by entry, by the block of coefficients spread along the 32 features.  Below: what one
  block's product is at an entry; that the three windows sit on the same rows; hence that the block written
  back is that block of the whole-array product; and that the 165 blocks fill the array. -/

/-- The two zero offsets of a whole-buffer access, as a constant function. -/
theorem offsets_zero1 : (![0, 0] : Fin 2 → Nat) = fun _ => 0 := funext fun a => by fin_cases a <;> rfl

/-- A column of `a` entries spread along `b` features reads, at row `p` and feature `f`, the column's entry of row `p`. -/
theorem column_spread_apply1 {α : Type} {a b : ℕ} (v : (⟨2, ![a, 1]⟩ : Shape).Idx → α)
    (h : (⟨2, ![a, 1]⟩ : Shape).Broadcasts ⟨2, ![a, b]⟩) (p : Fin a) (f : Fin b) :
    broadcastTo ⟨2, ![a, b]⟩ v h (ix2 p f) = v (ix2 p (0 : Fin 1)) := by
  refine broadcastTo_apply v h (ix2 p f) (ix2 p (0 : Fin 1)) fun ax => ?_
  match ax with
  | ⟨0, _⟩ =>
    show p.val = if a = 1 then 0 else p.val
    split
    · have := p.isLt; omega
    · rfl
  | ⟨1, _⟩ => rfl

/-- One block's product at row `r`, feature `q`: the row's entry times the row's coefficient. -/
theorem block_product1 (x0 : FVec Ideal S20000x32 .f32) (x1 : FVec Ideal S20000x1 .f32) (r : Fin 20000) (q : Fin 32) :
    k1_pay1 (F := Ideal) x0 x1 (ix2 r q) = x0 (ix2 r q) * x1 (ix2 r (0 : Fin 1)) := by
  unfold k1_pay1
  show mulf (shapeCast S20000x32 x0 _) (broadcastTo S20000x32 (shapeCast S20000x1 x1 _) _) (ix2 r q) = _
  rw [mulf_apply, shapeCast_self, shapeCast_self, column_spread_apply1]

/-- The block indices over the grid: at point `t` all three windows sit on block row `t`, block column 0. -/
theorem block_indices1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Window 0's block at point `t` holds the gathered rows that window 2's block sits on. -/
theorem rows_at1 (c : Dev nD) (t : Fin cfg1.N) (y : S20000x32.Idx) :
    iblk1 V c 0 t y = V c main_v38 (((cfg1.win 2).blk t).view.emb y) := by
  obtain ⟨e0, e1, e2, e3, e4, e5⟩ := block_indices1 t
  show V c main_v38 (((cfg1.win 0).blk t).view.emb y) = V c main_v38 (((cfg1.win 2).blk t).view.emb y)
  have h : ((cfg1.win 0).blk t).view.emb y = ((cfg1.win 2).blk t).view.emb y := by
    funext a; apply Fin.ext
    match a with
    | ⟨0, _⟩ => show win1_0.index t (0 : Fin 2) * 20000 + 1 * (y 0).val = win1_2.index t (0 : Fin 2) * 20000 + 1 * (y 0).val; omega
    | ⟨1, _⟩ => show win1_0.index t (1 : Fin 2) * 32 + 1 * (y 1).val = win1_2.index t (1 : Fin 2) * 32 + 1 * (y 1).val; omega
  rw [h]

/-- Window 1's block at point `t`, at row `r`, holds the coefficient of the edge that row `r` of window 2's block is. -/
theorem coeff_at1 (c : Dev nD) (t : Fin cfg1.N) (r : Fin 20000) (q : Fin 32) :
    iblk1 V c 1 t (ix2 r (0 : Fin 1)) = V c main_v30 (ix2 ((((cfg1.win 2).blk t).view.emb (ix2 r q)) 0) (0 : Fin 1)) := by
  obtain ⟨e0, e1, e2, e3, e4, e5⟩ := block_indices1 t
  show V c main_v30 (((cfg1.win 1).blk t).view.emb (ix2 r (0 : Fin 1))) = _
  have h : ((cfg1.win 1).blk t).view.emb (ix2 r (0 : Fin 1)) = ix2 ((((cfg1.win 2).blk t).view.emb (ix2 r q)) 0) (0 : Fin 1) := by
    funext a; apply Fin.ext
    match a with
    | ⟨0, _⟩ => show win1_1.index t (0 : Fin 2) * 20000 + 1 * r.val = win1_2.index t (0 : Fin 2) * 20000 + 1 * r.val; omega
    | ⟨1, _⟩ => show win1_1.index t (1 : Fin 2) * 1 + 1 * 0 = 0; omega
  rw [h]
  rfl

/-- What point `t` writes back is block `t` of the whole-array product. -/
theorem written_block1 (c : Dev nD) (t : Fin cfg1.N) :
    (dat1 (F := Ideal) V c).flushed 2 t = ((cfg1.win 2).blk t).view.read (Elt Ideal) (Cert.Gcn.scale32 (V c main_v38) (V c main_v30)) := by
  show (cfg1.win 2).cut (grid1.coords t) ((dat1 V c).after 2 t) = _
  rw [after1_2]
  unfold out1_2
  rw [View.canon_unit_zero offsets_zero1]
  simp only [View.ld_unit_zero (S := S20000x32) offsets_zero1, View.ld_unit_zero (S := S20000x1) offsets_zero1]
  funext j
  obtain ⟨r, q, rfl⟩ : ∃ (r : Fin 20000) (q : Fin 32), j = ix2 r q := ⟨j 0, j 1, eq_ix2 j⟩
  show k1_pay1 (F := Ideal) (iblk1 V c 0 t) (iblk1 V c 1 t) (ix2 r q) = Cert.Gcn.scale32 (V c main_v38) (V c main_v30) (((cfg1.win 2).blk t).view.emb (ix2 r q))
  rw [block_product1, rows_at1, coeff_at1 V c t r q]
  rfl

/-- An edge row and feature lie in point `t`'s block iff each coordinate lies in the block's range on its axis. -/
theorem mem_block1 (t : Fin cfg1.N) (i : S3300000x32.Idx) :
    i ∈ ((cfg1.win 2).blk t).view.set ↔ ∀ a : Fin 2, win1_2.index t a * S20000x32.size a ≤ (i a).val ∧ (i a).val < win1_2.index t a * S20000x32.size a + S20000x32.size a := by
  show i ∈ ((View.whole main_v39).slice (win1_2.rect t)).set ↔ _
  rw [View.set_slice_whole, Rect.mem_set_unit]
  exact Iff.rfl

/-- The 165 blocks fill the array: edge row `e` lies in the block of point `e / 20000`. -/
theorem blocks_fill1 (i : S3300000x32.Idx) :
    ∃ t : Fin cfg1.N, (cfg1.win 2).flush t = true ∧ i ∈ ((cfg1.win 2).blk t).view.set := by
  have hi0 : (i 0).val < 3300000 := (i 0).isLt
  have hi1 : (i 1).val < 32 := (i 1).isLt
  have hN : cfg1.N = 165 := N_1
  obtain ⟨t, ht⟩ : ∃ t : Fin cfg1.N, t.val = (i 0).val / 20000 := ⟨⟨(i 0).val / 20000, by omega⟩, rfl⟩
  obtain ⟨e0, e1, e2, e3, e4, e5⟩ := block_indices1 t
  refine ⟨t, flush1_2 t, ?_⟩
  rw [mem_block1]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 32 ≤ (i 1).val ∧ (i 1).val < win1_2.index t (1 : Fin 2) * 32 + 32; omega

/-- The array after region 1: every gathered row times its edge's coefficient. -/
theorem final1 (c : Dev nD) :
    (dat1 (F := Ideal) V c).arrAt 2 cfg1.N = Cert.Gcn.scale32 (V c main_v38) (V c main_v30) :=
  (dat1 (F := Ideal) V c).arrAt_eq_of_cover 2 (Cert.Gcn.scale32 (V c main_v38) (V c main_v30))
    (fun t _ => written_block1 V c t) blocks_fill1

end Cert.KernelIdeal.Regions

end
-- ==== Proof.Reg2.lean ====
import proofs.«113800_j37022618091719_1_alg».proof.Proof.Gen.KernelIdeal.Frame
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 2: the aggregated rows plus the bias row, then the positive part

  The region walks the 100000 nodes in 5 blocks of 20000 rows; the bias row of 32 features is read whole at
  every block.  At each block it adds the bias row to every row of the block and keeps the larger of the sum
  and zero.  Below: what one block's result is at an entry; where the three windows sit; hence that the block
  written back is that block of the whole-array function; and that the 5 blocks fill the array. -/

/-- The two zero offsets of a whole-buffer access, as a constant function. -/
theorem offsets_zero2 : (![0, 0] : Fin 2 → Nat) = fun _ => 0 := funext fun a => by fin_cases a <;> rfl

/-- One block's result at row `r`, feature `q`: the larger of (the row's entry plus the bias of feature `q`) and zero. -/
theorem block_bias_relu2 (x0 : FVec Ideal S20000x32 .f32) (x1 : FVec Ideal S1x32 .f32) (r : Fin 20000) (q : Fin 32) :
    k2_pay1 (F := Ideal) x0 x1 (ix2 r q)
      = max (x0 (ix2 r q) + x1 (ix2 (0 : Fin 1) q)) (Ideal.ofBits .f32 0x00000000#32) := by
  unfold k2_pay1
  show maximumf (addf (shapeCast S20000x32 x0 _) (broadcastTo S20000x32 (shapeCast S1x32 x1 _) _))
      (broadcast S20000x32 (Scalar.ofBits (F := Ideal) .f32 0x00000000#32)) (ix2 r q) = _
  rw [maximumf_apply, addf_apply, broadcast_apply, shapeCast_self, shapeCast_self, broadcastTo_1b_ab_apply]
  rfl

/-- The block indices over the grid: at point `t` the row windows sit on block row `t`, block column 0, and the
    bias window on block (0, 0). -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Window 0's block at point `t` holds the aggregated rows that window 2's block sits on. -/
theorem rows_at2 (c : Dev nD) (t : Fin cfg2.N) (y : S20000x32.Idx) :
    iblk2 V c 0 t y = V c main_v42 (((cfg2.win 2).blk t).view.emb y) := by
  obtain ⟨e0, e1, e2, e3, e4, e5⟩ := block_indices2 t
  show V c main_v42 (((cfg2.win 0).blk t).view.emb y) = V c main_v42 (((cfg2.win 2).blk t).view.emb y)
  have h : ((cfg2.win 0).blk t).view.emb y = ((cfg2.win 2).blk t).view.emb y := by
    funext a; apply Fin.ext
    match a with
    | ⟨0, _⟩ => show win2_0.index t (0 : Fin 2) * 20000 + 1 * (y 0).val = win2_2.index t (0 : Fin 2) * 20000 + 1 * (y 0).val; omega
    | ⟨1, _⟩ => show win2_0.index t (1 : Fin 2) * 32 + 1 * (y 1).val = win2_2.index t (1 : Fin 2) * 32 + 1 * (y 1).val; omega
  rw [h]

/-- Window 1's block at every point is the bias row: at feature `q` it holds the bias of the feature that column `q`
    of window 2's block is. -/
theorem bias_at2 (c : Dev nD) (t : Fin cfg2.N) (r : Fin 20000) (q : Fin 32) :
    iblk2 V c 1 t (ix2 (0 : Fin 1) q) = V c main_v43 (ix2 (0 : Fin 1) ((((cfg2.win 2).blk t).view.emb (ix2 r q)) 1)) := by
  obtain ⟨e0, e1, e2, e3, e4, e5⟩ := block_indices2 t
  show V c main_v43 (((cfg2.win 1).blk t).view.emb (ix2 (0 : Fin 1) q)) = _
  have h : ((cfg2.win 1).blk t).view.emb (ix2 (0 : Fin 1) q) = ix2 (0 : Fin 1) ((((cfg2.win 2).blk t).view.emb (ix2 r q)) 1) := by
    funext a; apply Fin.ext
    match a with
    | ⟨0, _⟩ => show win2_1.index t (0 : Fin 2) * 1 + 1 * 0 = 0; omega
    | ⟨1, _⟩ => show win2_1.index t (1 : Fin 2) * 32 + 1 * q.val = win2_2.index t (1 : Fin 2) * 32 + 1 * q.val; omega
  rw [h]
  rfl

/-- What point `t` writes back is block `t` of the whole-array function. -/
theorem written_block2 (c : Dev nD) (t : Fin cfg2.N) :
    (dat2 (F := Ideal) V c).flushed 2 t = ((cfg2.win 2).blk t).view.read (Elt Ideal) (Cert.Gcn.biasRelu32 (V c main_v42) (V c main_v43)) := by
  show (cfg2.win 2).cut (grid2.coords t) ((dat2 V c).after 2 t) = _
  rw [after2_2]
  unfold out2_2
  rw [View.canon_unit_zero offsets_zero2]
  simp only [View.ld_unit_zero (S := S20000x32) offsets_zero2, View.ld_unit_zero (S := S1x32) offsets_zero2]
  funext j
  obtain ⟨r, q, rfl⟩ : ∃ (r : Fin 20000) (q : Fin 32), j = ix2 r q := ⟨j 0, j 1, eq_ix2 j⟩
  show k2_pay1 (F := Ideal) (iblk2 V c 0 t) (iblk2 V c 1 t) (ix2 r q) = Cert.Gcn.biasRelu32 (V c main_v42) (V c main_v43) (((cfg2.win 2).blk t).view.emb (ix2 r q))
  rw [block_bias_relu2, rows_at2, bias_at2 V c t r q]
  rfl

/-- A node row and feature lie in point `t`'s block iff each coordinate lies in the block's range on its axis. -/
theorem mem_block2 (t : Fin cfg2.N) (i : S100000x32.Idx) :
    i ∈ ((cfg2.win 2).blk t).view.set ↔ ∀ a : Fin 2, win2_2.index t a * S20000x32.size a ≤ (i a).val ∧ (i a).val < win2_2.index t a * S20000x32.size a + S20000x32.size a := by
  show i ∈ ((View.whole main_v44).slice (win2_2.rect t)).set ↔ _
  rw [View.set_slice_whole, Rect.mem_set_unit]
  exact Iff.rfl

/-- The 5 blocks fill the array: node row `n` lies in the block of point `n / 20000`. -/
theorem blocks_fill2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 5 := N_2
  obtain ⟨t, ht⟩ : ∃ t : Fin cfg2.N, t.val = (i 0).val / 20000 := ⟨⟨(i 0).val / 20000, by omega⟩, rfl⟩
  obtain ⟨e0, e1, e2, e3, e4, e5⟩ := block_indices2 t
  refine ⟨t, flush2_2 t, ?_⟩
  rw [mem_block2]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 32 ≤ (i 1).val ∧ (i 1).val < win2_2.index t (1 : Fin 2) * 32 + 32; omega

/-- The array after region 2: the aggregated rows plus the bias row, then the positive part. -/
theorem final2 (c : Dev nD) :
    (dat2 (F := Ideal) V c).arrAt 2 cfg2.N = Cert.Gcn.biasRelu32 (V c main_v42) (V c main_v43) :=
  (dat2 (F := Ideal) V c).arrAt_eq_of_cover 2 (Cert.Gcn.biasRelu32 (V c main_v42) (V c main_v43))
    (fun t _ => written_block2 V c t) blocks_fill2

end Cert.KernelIdeal.Regions

end
-- ==== Proof.Reg3.lean ====
import proofs.«113800_j37022618091719_1_alg».proof.Proof.Gen.KernelIdeal.Frame
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ### Region 3: 100000 rows in 20 blocks of 5000, each block of rows times the whole [32,16] weight matrix -/

/-- A block whose window starts at the block's own origin. -/
theorem origin_zero : (![0, 0] : Fin 2 → Nat) = fun _ => 0 := funext fun a => by fin_cases a <;> rfl

/-- In a block product, at entry (r, q) and contraction position k the left block is read at (r, k). -/
theorem blk3_lhs (r : Fin 5000) (q : Fin 16) (k : Fin 32) :
    dot_S5000x32_S32x16_S5000x16_1_0_0_1_n_n.lhsIdx (ix2 r q) ((contrEquiv1 dot_S5000x32_S32x16_S5000x16_1_0_0_1_n_n 32 rfl rfl).symm k) = ix2 r k := by
  funext ax; apply Fin.ext
  match ax with
  | ⟨0, _⟩ => simp [DotDims.lhsIdx, dot_S5000x32_S32x16_S5000x16_1_0_0_1_n_n]; rfl
  | ⟨1, _⟩ => simp [DotDims.lhsIdx, dot_S5000x32_S32x16_S5000x16_1_0_0_1_n_n]; exact contrEquiv1_symm_val dot_S5000x32_S32x16_S5000x16_1_0_0_1_n_n 32 rfl rfl k

/-- … and the weight matrix at (k, q). -/
theorem blk3_rhs (r : Fin 5000) (q : Fin 16) (k : Fin 32) :
    dot_S5000x32_S32x16_S5000x16_1_0_0_1_n_n.rhsIdx (ix2 r q) ((contrEquiv1 dot_S5000x32_S32x16_S5000x16_1_0_0_1_n_n 32 rfl rfl).symm k) = ix2 k q := by
  funext ax; apply Fin.ext
  match ax with
  | ⟨0, _⟩ => simp [DotDims.rhsIdx, dot_S5000x32_S32x16_S5000x16_1_0_0_1_n_n]; exact contrEquiv1_symm_val dot_S5000x32_S32x16_S5000x16_1_0_0_1_n_n 32 rfl rfl k
  | ⟨1, _⟩ => simp [DotDims.rhsIdx, dot_S5000x32_S32x16_S5000x16_1_0_0_1_n_n]; rfl

/-- What the body computes from a block of rows and the weight matrix, entry by entry: over the extended reals the
    change of float format is the identity and the product into the zero accumulator is the plain sum over the 32
    contracted features. -/
theorem blk3_pay_apply (x0 : Vec Ideal S5000x32 .f32) (x1 : Vec Ideal S32x16 .f32) (r : Fin 5000) (q : Fin 16) :
    k3_pay1 (F := Ideal) x0 x1 (ix2 r q) = ∑ k : Fin 32, x0 (ix2 r k) * x1 (ix2 k q) := by
  unfold k3_pay1
  simp only [matmul, shapeCast_self]
  refine (Ideal.matmul_constant_zero_apply dot_S5000x32_S32x16_S5000x16_1_0_0_1_n_n none _ _ (ix2 r q)).trans ?_
  rw [← Equiv.sum_comp (contrEquiv1 dot_S5000x32_S32x16_S5000x16_1_0_0_1_n_n 32 rfl rfl).symm]
  refine Finset.sum_congr rfl fun k _ => ?_
  rw [blk3_lhs, blk3_rhs]
  rfl

/-- One entry of the block product is the entry of the whole-array product in the row it lands in, as soon as the
    block's rows are those rows of the array and the weight block is the whole weight matrix. -/
theorem blk3_entry (x : FVec Ideal S100000x32 .f32) (w : FVec Ideal S32x16 .f32)
    (x0 : Vec Ideal S5000x32 .f32) (x1 : Vec Ideal S32x16 .f32) (r : Fin 5000) (q : Fin 16) (i : S100000x16.Idx)
    (hx : ∀ k : Fin 32, x0 (ix2 r k) = x (ix2 (i 0) k))
    (hw : ∀ k : Fin 32, x1 (ix2 k q) = w (ix2 k (i 1))) :
    k3_pay1 (F := Ideal) x0 x1 (ix2 r q) = Cert.Gcn.lin2 x w i := by
  rw [blk3_pay_apply]
  exact Finset.sum_congr rfl fun k _ => by rw [hx k, hw k]

/-- The three windows' block indices at every grid point: the row window moves with the output window (block t at
    point t), the weight window stays at the origin, and no window moves along the feature axis. -/
theorem blk3_index_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole-array product of the two input arrays as the region finds them. -/
theorem blk3_written (c : Dev nD) (t : Fin cfg3.N) :
    (dat3 (F := Ideal) V c).flushed 2 t
      = ((cfg3.win 2).blk t).view.read (Elt Ideal) (Cert.Gcn.lin2 (V c main_v44) (V c main_arg3)) := by
  show (cfg3.win 2).cut (grid3.coords t) ((dat3 (F := Ideal) V c).after 2 t) = _
  rw [after3_2]
  unfold out3_2
  rw [View.canon_unit_zero origin_zero]
  simp only [View.ld_unit_zero (S := S5000x32) origin_zero, View.ld_unit_zero (S := S32x16) origin_zero]
  obtain ⟨e0, e1, e2, e3, e4, e5⟩ := blk3_index_facts t
  funext j
  revert j
  show ∀ j : S5000x16.Idx, k3_pay1 (F := Ideal) (iblk3 V c 0 t) (iblk3 V c 1 t) j
      = Cert.Gcn.lin2 (V c main_v44) (V c main_arg3) (((cfg3.win 2).blk t).view.emb j)
  intro j
  obtain ⟨r, q, rfl⟩ : ∃ (r : Fin 5000) (q : Fin 16), j = ix2 r q := ⟨j 0, j 1, eq_ix2 j⟩
  refine blk3_entry (V c main_v44) (V c main_arg3) _ _ r q _ (fun k => ?_) (fun k => ?_)
  · show V c main_v44 (((cfg3.win 0).blk t).view.emb (ix2 r k))
        = V c main_v44 (ix2 ((((cfg3.win 2).blk t).view.emb (ix2 r q)) 0) k)
    refine congrArg _ ?_
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 32 + 1 * k.val = k.val; omega
  · show V c main_arg3 (((cfg3.win 1).blk t).view.emb (ix2 k q))
        = V c main_arg3 (ix2 k ((((cfg3.win 2).blk t).view.emb (ix2 r q)) 1))
    refine congrArg _ ?_
    funext a; apply Fin.ext
    match a with
    | ⟨0, _⟩ => show win3_1.index t (0 : Fin 2) * 32 + 1 * k.val = k.val; omega
    | ⟨1, _⟩ => show win3_1.index t (1 : Fin 2) * 16 + 1 * q.val = win3_2.index t (1 : Fin 2) * 16 + 1 * q.val; omega

/-- An entry of the output array lies in grid point t's block exactly when, on each axis, its coordinate lies in the
    block's range. -/
theorem blk3_mem (t : Fin cfg3.N) (i : S100000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v45).slice (win3_2.rect t)).set ↔ _
  rw [View.set_slice_whole, Rect.mem_set_unit]
  exact Iff.rfl

/-- The 20 blocks of 5000 rows tile the 100000 rows: row i is written by grid point i / 5000. -/
theorem blk3_cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : grid3.N = 20 := N_3
  obtain ⟨t, ht⟩ : ∃ t : Fin cfg3.N, t.val = (i 0).val / 5000 :=
    ⟨⟨(i 0).val / 5000, by show (i 0).val / 5000 < grid3.N; omega⟩, rfl⟩
  obtain ⟨e0, e1, e2, e3, e4, e5⟩ := blk3_index_facts t
  refine ⟨t, flush3_2 t, ?_⟩
  rw [blk3_mem]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 16 ≤ (i 1).val ∧ (i 1).val < win3_2.index t (1 : Fin 2) * 16 + 16
    omega

/-- After the region the output array holds the whole-array product of the two input arrays. -/
theorem final3 (c : Dev nD) :
    (dat3 (F := Ideal) V c).arrAt 2 cfg3.N = Cert.Gcn.lin2 (V c main_v44) (V c main_arg3) :=
  (dat3 (F := Ideal) V c).arrAt_eq_of_cover 2 (Cert.Gcn.lin2 (V c main_v44) (V c main_arg3))
    (fun t _ => blk3_written V c t) blk3_cover

end Cert.KernelIdeal.Regions

end
-- ==== Proof.Reg4.lean ====
import proofs.«113800_j37022618091719_1_alg».proof.Proof.Gen.KernelIdeal.Frame
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 4: every gathered row of 16 features times its edge's coefficient

  The region walks the 3300000 edges in 165 blocks of 20000 rows.  At each block it multiplies the block of
  gathered rows, entry by entry, by the block of coefficients spread along the 16 features.  Below: what one
  block's product is at an entry; that the three windows sit on the same rows; hence that the block written
  back is that block of the whole-array product; and that the 165 blocks fill the array. -/

/-- The two zero offsets of a whole-buffer access, as a constant function. -/
theorem offsets_zero4 : (![0, 0] : Fin 2 → Nat) = fun _ => 0 := funext fun a => by fin_cases a <;> rfl

/-- A column of `a` entries spread along `b` features reads, at row `p` and feature `f`, the column's entry of row `p`. -/
theorem column_spread_apply4 {α : Type} {a b : ℕ} (v : (⟨2, ![a, 1]⟩ : Shape).Idx → α)
    (h : (⟨2, ![a, 1]⟩ : Shape).Broadcasts ⟨2, ![a, b]⟩) (p : Fin a) (f : Fin b) :
    broadcastTo ⟨2, ![a, b]⟩ v h (ix2 p f) = v (ix2 p (0 : Fin 1)) := by
  refine broadcastTo_apply v h (ix2 p f) (ix2 p (0 : Fin 1)) fun ax => ?_
  match ax with
  | ⟨0, _⟩ =>
    show p.val = if a = 1 then 0 else p.val
    split
    · have := p.isLt; omega
    · rfl
  | ⟨1, _⟩ => rfl

/-- One block's product at row `r`, feature `q`: the row's entry times the row's coefficient. -/
theorem block_product4 (x0 : FVec Ideal S20000x16 .f32) (x1 : FVec Ideal S20000x1 .f32) (r : Fin 20000) (q : Fin 16) :
    k4_pay1 (F := Ideal) x0 x1 (ix2 r q) = x0 (ix2 r q) * x1 (ix2 r (0 : Fin 1)) := by
  unfold k4_pay1
  show mulf (shapeCast S20000x16 x0 _) (broadcastTo S20000x16 (shapeCast S20000x1 x1 _) _) (ix2 r q) = _
  rw [mulf_apply, shapeCast_self, shapeCast_self, column_spread_apply4]

/-- The block indices over the grid: at point `t` all three windows sit on block row `t`, block column 0. -/
theorem block_indices4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Window 0's block at point `t` holds the gathered rows that window 2's block sits on. -/
theorem rows_at4 (c : Dev nD) (t : Fin cfg4.N) (y : S20000x16.Idx) :
    iblk4 V c 0 t y = V c main_v52 (((cfg4.win 2).blk t).view.emb y) := by
  obtain ⟨e0, e1, e2, e3, e4, e5⟩ := block_indices4 t
  show V c main_v52 (((cfg4.win 0).blk t).view.emb y) = V c main_v52 (((cfg4.win 2).blk t).view.emb y)
  have h : ((cfg4.win 0).blk t).view.emb y = ((cfg4.win 2).blk t).view.emb y := by
    funext a; apply Fin.ext
    match a with
    | ⟨0, _⟩ => show win4_0.index t (0 : Fin 2) * 20000 + 1 * (y 0).val = win4_2.index t (0 : Fin 2) * 20000 + 1 * (y 0).val; omega
    | ⟨1, _⟩ => show win4_0.index t (1 : Fin 2) * 16 + 1 * (y 1).val = win4_2.index t (1 : Fin 2) * 16 + 1 * (y 1).val; omega
  rw [h]

/-- Window 1's block at point `t`, at row `r`, holds the coefficient of the edge that row `r` of window 2's block is. -/
theorem coeff_at4 (c : Dev nD) (t : Fin cfg4.N) (r : Fin 20000) (q : Fin 16) :
    iblk4 V c 1 t (ix2 r (0 : Fin 1)) = V c main_v30 (ix2 ((((cfg4.win 2).blk t).view.emb (ix2 r q)) 0) (0 : Fin 1)) := by
  obtain ⟨e0, e1, e2, e3, e4, e5⟩ := block_indices4 t
  show V c main_v30 (((cfg4.win 1).blk t).view.emb (ix2 r (0 : Fin 1))) = _
  have h : ((cfg4.win 1).blk t).view.emb (ix2 r (0 : Fin 1)) = ix2 ((((cfg4.win 2).blk t).view.emb (ix2 r q)) 0) (0 : Fin 1) := by
    funext a; apply Fin.ext
    match a with
    | ⟨0, _⟩ => show win4_1.index t (0 : Fin 2) * 20000 + 1 * r.val = win4_2.index t (0 : Fin 2) * 20000 + 1 * r.val; omega
    | ⟨1, _⟩ => show win4_1.index t (1 : Fin 2) * 1 + 1 * 0 = 0; omega
  rw [h]
  rfl

/-- What point `t` writes back is block `t` of the whole-array product. -/
theorem written_block4 (c : Dev nD) (t : Fin cfg4.N) :
    (dat4 (F := Ideal) V c).flushed 2 t = ((cfg4.win 2).blk t).view.read (Elt Ideal) (Cert.Gcn.scale16 (V c main_v52) (V c main_v30)) := by
  show (cfg4.win 2).cut (grid4.coords t) ((dat4 V c).after 2 t) = _
  rw [after4_2]
  unfold out4_2
  rw [View.canon_unit_zero offsets_zero4]
  simp only [View.ld_unit_zero (S := S20000x16) offsets_zero4, View.ld_unit_zero (S := S20000x1) offsets_zero4]
  funext j
  obtain ⟨r, q, rfl⟩ : ∃ (r : Fin 20000) (q : Fin 16), j = ix2 r q := ⟨j 0, j 1, eq_ix2 j⟩
  show k4_pay1 (F := Ideal) (iblk4 V c 0 t) (iblk4 V c 1 t) (ix2 r q) = Cert.Gcn.scale16 (V c main_v52) (V c main_v30) (((cfg4.win 2).blk t).view.emb (ix2 r q))
  rw [block_product4, rows_at4, coeff_at4 V c t r q]
  rfl

/-- An edge row and feature lie in point `t`'s block iff each coordinate lies in the block's range on its axis. -/
theorem mem_block4 (t : Fin cfg4.N) (i : S3300000x16.Idx) :
    i ∈ ((cfg4.win 2).blk t).view.set ↔ ∀ a : Fin 2, win4_2.index t a * S20000x16.size a ≤ (i a).val ∧ (i a).val < win4_2.index t a * S20000x16.size a + S20000x16.size a := by
  show i ∈ ((View.whole main_v53).slice (win4_2.rect t)).set ↔ _
  rw [View.set_slice_whole, Rect.mem_set_unit]
  exact Iff.rfl

/-- The 165 blocks fill the array: edge row `e` lies in the block of point `e / 20000`. -/
theorem blocks_fill4 (i : S3300000x16.Idx) :
    ∃ t : Fin cfg4.N, (cfg4.win 2).flush t = true ∧ i ∈ ((cfg4.win 2).blk t).view.set := by
  have hi0 : (i 0).val < 3300000 := (i 0).isLt
  have hi1 : (i 1).val < 16 := (i 1).isLt
  have hN : cfg4.N = 165 := N_4
  obtain ⟨t, ht⟩ : ∃ t : Fin cfg4.N, t.val = (i 0).val / 20000 := ⟨⟨(i 0).val / 20000, by omega⟩, rfl⟩
  obtain ⟨e0, e1, e2, e3, e4, e5⟩ := block_indices4 t
  refine ⟨t, flush4_2 t, ?_⟩
  rw [mem_block4]
  intro a
  match a with
  | ⟨0, _⟩ => show win4_2.index t (0 : Fin 2) * 20000 ≤ (i 0).val ∧ (i 0).val < win4_2.index t (0 : Fin 2) * 20000 + 20000; omega
  | ⟨1, _⟩ => show win4_2.index t (1 : Fin 2) * 16 ≤ (i 1).val ∧ (i 1).val < win4_2.index t (1 : Fin 2) * 16 + 16; omega

/-- The array after region 4: every gathered row times its edge's coefficient. -/
theorem final4 (c : Dev nD) :
    (dat4 (F := Ideal) V c).arrAt 2 cfg4.N = Cert.Gcn.scale16 (V c main_v52) (V c main_v30) :=
  (dat4 (F := Ideal) V c).arrAt_eq_of_cover 2 (Cert.Gcn.scale16 (V c main_v52) (V c main_v30))
    (fun t _ => written_block4 V c t) blocks_fill4

end Cert.KernelIdeal.Regions

end
-- ==== Proof.Reg5.lean ====
import proofs.«113800_j37022618091719_1_alg».proof.Proof.Gen.KernelIdeal.Frame
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! # Region 5: the aggregated rows plus the bias row

  The region walks the 100000 nodes in 5 blocks of 20000 rows; the bias row of 16 features is read whole at
  every block.  At each block it adds the bias row to every row of the block.  Below: what one block's result is at an entry; where the three windows sit; hence that the block
  written back is that block of the whole-array function; and that the 5 blocks fill the array. -/

/-- The two zero offsets of a whole-buffer access, as a constant function. -/
theorem offsets_zero5 : (![0, 0] : Fin 2 → Nat) = fun _ => 0 := funext fun a => by fin_cases a <;> rfl

/-- One block's result at row `r`, feature `q`: the row's entry plus the bias of feature `q`. -/
theorem block_bias5 (x0 : FVec Ideal S20000x16 .f32) (x1 : FVec Ideal S1x16 .f32) (r : Fin 20000) (q : Fin 16) :
    k5_pay1 (F := Ideal) x0 x1 (ix2 r q) = x0 (ix2 r q) + x1 (ix2 (0 : Fin 1) q) := by
  unfold k5_pay1
  show addf (shapeCast S20000x16 x0 _) (broadcastTo S20000x16 (shapeCast S1x16 x1 _) _) (ix2 r q) = _
  rw [addf_apply, shapeCast_self, shapeCast_self, broadcastTo_1b_ab_apply]

/-- The block indices over the grid: at point `t` the row windows sit on block row `t`, block column 0, and the
    bias window on block (0, 0). -/
theorem block_indices5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Window 0's block at point `t` holds the aggregated rows that window 2's block sits on. -/
theorem rows_at5 (c : Dev nD) (t : Fin cfg5.N) (y : S20000x16.Idx) :
    iblk5 V c 0 t y = V c main_v56 (((cfg5.win 2).blk t).view.emb y) := by
  obtain ⟨e0, e1, e2, e3, e4, e5⟩ := block_indices5 t
  show V c main_v56 (((cfg5.win 0).blk t).view.emb y) = V c main_v56 (((cfg5.win 2).blk t).view.emb y)
  have h : ((cfg5.win 0).blk t).view.emb y = ((cfg5.win 2).blk t).view.emb y := by
    funext a; apply Fin.ext
    match a with
    | ⟨0, _⟩ => show win5_0.index t (0 : Fin 2) * 20000 + 1 * (y 0).val = win5_2.index t (0 : Fin 2) * 20000 + 1 * (y 0).val; omega
    | ⟨1, _⟩ => show win5_0.index t (1 : Fin 2) * 16 + 1 * (y 1).val = win5_2.index t (1 : Fin 2) * 16 + 1 * (y 1).val; omega
  rw [h]

/-- Window 1's block at every point is the bias row: at feature `q` it holds the bias of the feature that column `q`
    of window 2's block is. -/
theorem bias_at5 (c : Dev nD) (t : Fin cfg5.N) (r : Fin 20000) (q : Fin 16) :
    iblk5 V c 1 t (ix2 (0 : Fin 1) q) = V c main_v57 (ix2 (0 : Fin 1) ((((cfg5.win 2).blk t).view.emb (ix2 r q)) 1)) := by
  obtain ⟨e0, e1, e2, e3, e4, e5⟩ := block_indices5 t
  show V c main_v57 (((cfg5.win 1).blk t).view.emb (ix2 (0 : Fin 1) q)) = _
  have h : ((cfg5.win 1).blk t).view.emb (ix2 (0 : Fin 1) q) = ix2 (0 : Fin 1) ((((cfg5.win 2).blk t).view.emb (ix2 r q)) 1) := by
    funext a; apply Fin.ext
    match a with
    | ⟨0, _⟩ => show win5_1.index t (0 : Fin 2) * 1 + 1 * 0 = 0; omega
    | ⟨1, _⟩ => show win5_1.index t (1 : Fin 2) * 16 + 1 * q.val = win5_2.index t (1 : Fin 2) * 16 + 1 * q.val; omega
  rw [h]
  rfl

/-- What point `t` writes back is block `t` of the whole-array function. -/
theorem written_block5 (c : Dev nD) (t : Fin cfg5.N) :
    (dat5 (F := Ideal) V c).flushed 2 t = ((cfg5.win 2).blk t).view.read (Elt Ideal) (Cert.Gcn.bias16 (V c main_v56) (V c main_v57)) := by
  show (cfg5.win 2).cut (grid5.coords t) ((dat5 V c).after 2 t) = _
  rw [after5_2]
  unfold out5_2
  rw [View.canon_unit_zero offsets_zero5]
  simp only [View.ld_unit_zero (S := S20000x16) offsets_zero5, View.ld_unit_zero (S := S1x16) offsets_zero5]
  funext j
  obtain ⟨r, q, rfl⟩ : ∃ (r : Fin 20000) (q : Fin 16), j = ix2 r q := ⟨j 0, j 1, eq_ix2 j⟩
  show k5_pay1 (F := Ideal) (iblk5 V c 0 t) (iblk5 V c 1 t) (ix2 r q) = Cert.Gcn.bias16 (V c main_v56) (V c main_v57) (((cfg5.win 2).blk t).view.emb (ix2 r q))
  rw [block_bias5, rows_at5, bias_at5 V c t r q]
  rfl

/-- A node row and feature lie in point `t`'s block iff each coordinate lies in the block's range on its axis. -/
theorem mem_block5 (t : Fin cfg5.N) (i : S100000x16.Idx) :
    i ∈ ((cfg5.win 2).blk t).view.set ↔ ∀ a : Fin 2, win5_2.index t a * S20000x16.size a ≤ (i a).val ∧ (i a).val < win5_2.index t a * S20000x16.size a + S20000x16.size a := by
  show i ∈ ((View.whole main_v58).slice (win5_2.rect t)).set ↔ _
  rw [View.set_slice_whole, Rect.mem_set_unit]
  exact Iff.rfl

/-- The 5 blocks fill the array: node row `n` lies in the block of point `n / 20000`. -/
theorem blocks_fill5 (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 5 := N_5
  obtain ⟨t, ht⟩ : ∃ t : Fin cfg5.N, t.val = (i 0).val / 20000 := ⟨⟨(i 0).val / 20000, by omega⟩, rfl⟩
  obtain ⟨e0, e1, e2, e3, e4, e5⟩ := block_indices5 t
  refine ⟨t, flush5_2 t, ?_⟩
  rw [mem_block5]
  intro a
  match a with
  | ⟨0, _⟩ => show win5_2.index t (0 : Fin 2) * 20000 ≤ (i 0).val ∧ (i 0).val < win5_2.index t (0 : Fin 2) * 20000 + 20000; omega
  | ⟨1, _⟩ => show win5_2.index t (1 : Fin 2) * 16 ≤ (i 1).val ∧ (i 1).val < win5_2.index t (1 : Fin 2) * 16 + 16; omega

/-- The array after region 5: the aggregated rows plus the bias row. -/
theorem final5 (c : Dev nD) :
    (dat5 (F := Ideal) V c).arrAt 2 cfg5.N = Cert.Gcn.bias16 (V c main_v56) (V c main_v57) :=
  (dat5 (F := Ideal) V c).arrAt_eq_of_cover 2 (Cert.Gcn.bias16 (V c main_v56) (V c main_v57))
    (fun t _ => written_block5 V c t) blocks_fill5

end Cert.KernelIdeal.Regions

end
-- ==== Proof.RefDot.lean ====
import proofs.«113800_j37022618091719_1_alg».proof.Proof.Gen.ReferenceIdeal
import proofs.«113800_j37022618091719_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Stages

open Cert.ReferenceIdeal Cert.ReferenceIdeal.Gen
open Idealize.ShloMosaic Idealize.ShloMosaic.TcCoe Idealize.ShloMosaic.ValueIdx

/-! ### The dot1 dense product: [100000,16] times [16,32], contracting the left operand's columns with the right operand's rows -/

/-- At output entry (r, q) and contraction position c the left operand is read at (r, c). -/
theorem dot1_lhs (r : Fin 100000) (q : Fin 32) (c : Fin 16) :
    dot_S100000x16_S16x32_S100000x32_1_0_0_1_n_n.lhsIdx (ix2 r q) ((contrEquiv1 dot_S100000x16_S16x32_S100000x32_1_0_0_1_n_n 16 rfl rfl).symm c) = ix2 r c := by
  funext ax; apply Fin.ext
  match ax with
  | ⟨0, _⟩ => simp [DotDims.lhsIdx, dot_S100000x16_S16x32_S100000x32_1_0_0_1_n_n]; rfl
  | ⟨1, _⟩ => simp [DotDims.lhsIdx, dot_S100000x16_S16x32_S100000x32_1_0_0_1_n_n]; exact contrEquiv1_symm_val dot_S100000x16_S16x32_S100000x32_1_0_0_1_n_n 16 rfl rfl c

/-- At output entry (r, q) and contraction position c the right operand is read at (c, q). -/
theorem dot1_rhs (r : Fin 100000) (q : Fin 32) (c : Fin 16) :
    dot_S100000x16_S16x32_S100000x32_1_0_0_1_n_n.rhsIdx (ix2 r q) ((contrEquiv1 dot_S100000x16_S16x32_S100000x32_1_0_0_1_n_n 16 rfl rfl).symm c) = ix2 c q := by
  funext ax; apply Fin.ext
  match ax with
  | ⟨0, _⟩ => simp [DotDims.rhsIdx, dot_S100000x16_S16x32_S100000x32_1_0_0_1_n_n]; exact contrEquiv1_symm_val dot_S100000x16_S16x32_S100000x32_1_0_0_1_n_n 16 rfl rfl c
  | ⟨1, _⟩ => simp [DotDims.rhsIdx, dot_S100000x16_S16x32_S100000x32_1_0_0_1_n_n]; rfl

/-- The untiled product, entry by entry, is the sum over the 16 contracted features of the entries' products. -/
theorem dot1_eq (x : FVec Ideal S100000x16 .f32) (w : FVec Ideal S16x32 .f32) :
    Host.dotGeneral dot_S100000x16_S16x32_S100000x32_1_0_0_1_n_n none x w = Cert.Gcn.lin1 x w := by
  funext i
  obtain ⟨r, q, rfl⟩ : ∃ (r : Fin 100000) (q : Fin 32), i = ix2 r q := ⟨i 0, i 1, eq_ix2 i⟩
  show FloatOps.dotGeneral dot_S100000x16_S16x32_S100000x32_1_0_0_1_n_n none _ x w (ix2 r q) = ∑ k : Fin 16, x (ix2 r k) * w (ix2 k q)
  rw [Ideal.dotGeneral_apply, ← Equiv.sum_comp (contrEquiv1 dot_S100000x16_S16x32_S100000x32_1_0_0_1_n_n 16 rfl rfl).symm]
  refine Finset.sum_congr rfl fun c _ => ?_
  rw [dot1_lhs, dot1_rhs]

/-! ### The dot2 dense product: [100000,32] times [32,16], contracting the left operand's columns with the right operand's rows -/

/-- At output entry (r, q) and contraction position c the left operand is read at (r, c). -/
theorem dot2_lhs (r : Fin 100000) (q : Fin 16) (c : Fin 32) :
    dot_S100000x32_S32x16_S100000x16_1_0_0_1_n_n.lhsIdx (ix2 r q) ((contrEquiv1 dot_S100000x32_S32x16_S100000x16_1_0_0_1_n_n 32 rfl rfl).symm c) = ix2 r c := by
  funext ax; apply Fin.ext
  match ax with
  | ⟨0, _⟩ => simp [DotDims.lhsIdx, dot_S100000x32_S32x16_S100000x16_1_0_0_1_n_n]; rfl
  | ⟨1, _⟩ => simp [DotDims.lhsIdx, dot_S100000x32_S32x16_S100000x16_1_0_0_1_n_n]; exact contrEquiv1_symm_val dot_S100000x32_S32x16_S100000x16_1_0_0_1_n_n 32 rfl rfl c

/-- At output entry (r, q) and contraction position c the right operand is read at (c, q). -/
theorem dot2_rhs (r : Fin 100000) (q : Fin 16) (c : Fin 32) :
    dot_S100000x32_S32x16_S100000x16_1_0_0_1_n_n.rhsIdx (ix2 r q) ((contrEquiv1 dot_S100000x32_S32x16_S100000x16_1_0_0_1_n_n 32 rfl rfl).symm c) = ix2 c q := by
  funext ax; apply Fin.ext
  match ax with
  | ⟨0, _⟩ => simp [DotDims.rhsIdx, dot_S100000x32_S32x16_S100000x16_1_0_0_1_n_n]; exact contrEquiv1_symm_val dot_S100000x32_S32x16_S100000x16_1_0_0_1_n_n 32 rfl rfl c
  | ⟨1, _⟩ => simp [DotDims.rhsIdx, dot_S100000x32_S32x16_S100000x16_1_0_0_1_n_n]; rfl

/-- The untiled product, entry by entry, is the sum over the 32 contracted features of the entries' products. -/
theorem dot2_eq (h : FVec Ideal S100000x32 .f32) (w : FVec Ideal S32x16 .f32) :
    Host.dotGeneral dot_S100000x32_S32x16_S100000x16_1_0_0_1_n_n none h w = Cert.Gcn.lin2 h w := by
  funext i
  obtain ⟨r, q, rfl⟩ : ∃ (r : Fin 100000) (q : Fin 16), i = ix2 r q := ⟨i 0, i 1, eq_ix2 i⟩
  show FloatOps.dotGeneral dot_S100000x32_S32x16_S100000x16_1_0_0_1_n_n none _ h w (ix2 r q) = ∑ k : Fin 32, h (ix2 r k) * w (ix2 k q)
  rw [Ideal.dotGeneral_apply, ← Equiv.sum_comp (contrEquiv1 dot_S100000x32_S32x16_S100000x16_1_0_0_1_n_n 32 rfl rfl).symm]
  refine Finset.sum_congr rfl fun c _ => ?_
  rw [dot2_lhs, dot2_rhs]

end Cert.ReferenceIdeal.Stages

end
-- ==== Proof.Layout.lean ====
/-
  How the untiled program spells the dense pieces of Spec.lean, and two ways of writing a column and a row.

  The untiled program rescales the gathered rows by first broadcasting the coefficient column across the
  features and then multiplying entry by entry; it adds the bias by broadcasting the bias row down the nodes
  and adding entry by entry; and it takes the positive part as the entrywise larger of the sum and an array
  of zeros.  Read at an entry (r, q) each of these is what Spec.lean states.  A vector of n numbers becomes an
  n-by-1 column, or a 1-by-n row, either by a reshape or by a broadcast along the new unit axis: at every
  entry both read the same element of the vector.
-/
import proofs.«113800_j37022618091719_1_alg».proof.Proof.Spec
import Idealize.ShloMosaic.Lib.Pipeline.Value
import Idealize.ShloMosaic.Lib.ValueLayout
import Idealize.ShloMosaic.Lib.ValueIdx

noncomputable section

namespace Cert.Gcn

open Idealize.ShloMosaic Idealize.ShloMosaic.ValueIdx

/-! ## A column and a row, by reshape or by broadcast -/

/-- An n-vector as an n-by-1 column: the broadcast along the new axis and the reshape agree (entry (r, 0) is element r). -/
theorem column_eq {α : Type} (hb : (⟨1, ![3300000]⟩ : Shape).BroadcastsInDim ⟨2, ![3300000, 1]⟩ ![0])
    (hs : (⟨1, ![3300000]⟩ : Shape).ShapeCasts ⟨2, ![3300000, 1]⟩) (n : (⟨1, ![3300000]⟩ : Shape).Idx → α) :
    broadcastInDim ⟨2, ![3300000, 1]⟩ ![0] hb n = shapeCast ⟨2, ![3300000, 1]⟩ n hs := by
  funext j
  obtain ⟨r, u, rfl⟩ : ∃ (r : Fin 3300000) (u : Fin 1), j = ix2 r u := ⟨j 0, j 1, eq_ix2 j⟩
  have hl : broadcastInDim ⟨2, ![3300000, 1]⟩ ![0] hb n (ix2 r u) = n (ix1 r) :=
    broadcastInDim_apply ![0] hb n (ix2 r u) (ix1 r) fun a => by
      match a with
      | ⟨0, _⟩ =>
        show r.val = if (3300000 : Nat) = 1 then 0 else r.val
        rw [if_neg (by decide)]
  have hr : shapeCast ⟨2, ![3300000, 1]⟩ n hs (ix2 r u) = n (ix1 r) :=
    shapeCast_apply n hs (ix2 r u) (ix1 r) (by
      have hu : u.val = 0 := by omega
      rw [Shape.rowMajor_val_two, Shape.rowMajor_val_one]
      show r.val = r.val * 1 + u.val
      omega)
  rw [hl, hr]

/-- A 32-vector as a 1-by-32 row: the broadcast along the new axis and the reshape agree (entry (0, q) is element q). -/
theorem row32_eq {α : Type} (hb : (⟨1, ![32]⟩ : Shape).BroadcastsInDim ⟨2, ![1, 32]⟩ ![1])
    (hs : (⟨1, ![32]⟩ : Shape).ShapeCasts ⟨2, ![1, 32]⟩) (b : (⟨1, ![32]⟩ : Shape).Idx → α) :
    broadcastInDim ⟨2, ![1, 32]⟩ ![1] hb b = shapeCast ⟨2, ![1, 32]⟩ b hs := by
  funext j
  obtain ⟨u, q, rfl⟩ : ∃ (u : Fin 1) (q : Fin 32), j = ix2 u q := ⟨j 0, j 1, eq_ix2 j⟩
  have hl : broadcastInDim ⟨2, ![1, 32]⟩ ![1] hb b (ix2 u q) = b (ix1 q) :=
    broadcastInDim_apply ![1] hb b (ix2 u q) (ix1 q) fun a => by
      match a with
      | ⟨0, _⟩ =>
        show q.val = if (32 : Nat) = 1 then 0 else q.val
        rw [if_neg (by decide)]
  rw [hl, shapeCast_a_1a_apply b hs u q]

/-- A 16-vector as a 1-by-16 row: the broadcast along the new axis and the reshape agree. -/
theorem row16_eq {α : Type} (hb : (⟨1, ![16]⟩ : Shape).BroadcastsInDim ⟨2, ![1, 16]⟩ ![1])
    (hs : (⟨1, ![16]⟩ : Shape).ShapeCasts ⟨2, ![1, 16]⟩) (b : (⟨1, ![16]⟩ : Shape).Idx → α) :
    broadcastInDim ⟨2, ![1, 16]⟩ ![1] hb b = shapeCast ⟨2, ![1, 16]⟩ b hs := by
  funext j
  obtain ⟨u, q, rfl⟩ : ∃ (u : Fin 1) (q : Fin 16), j = ix2 u q := ⟨j 0, j 1, eq_ix2 j⟩
  have hl : broadcastInDim ⟨2, ![1, 16]⟩ ![1] hb b (ix2 u q) = b (ix1 q) :=
    broadcastInDim_apply ![1] hb b (ix2 u q) (ix1 q) fun a => by
      match a with
      | ⟨0, _⟩ =>
        show q.val = if (16 : Nat) = 1 then 0 else q.val
        rw [if_neg (by decide)]
  rw [hl, shapeCast_a_1a_apply b hs u q]

/-! ## The rescaling, entry by entry -/

/-- The coefficient column broadcast across 32 features and multiplied in: entry (r, q) is h(r, q) · s(r, 0). -/
theorem scale32_eq (hb : (⟨2, ![3300000, 1]⟩ : Shape).BroadcastsInDim ⟨2, ![3300000, 32]⟩ ![0, 1])
    (h : FVec Ideal ⟨2, ![3300000, 32]⟩ .f32) (s : FVec Ideal ⟨2, ![3300000, 1]⟩ .f32) :
    mulf h (broadcastInDim ⟨2, ![3300000, 32]⟩ ![0, 1] hb s) = scale32 h s := by
  funext j
  obtain ⟨r, q, rfl⟩ : ∃ (r : Fin 3300000) (q : Fin 32), j = ix2 r q := ⟨j 0, j 1, eq_ix2 j⟩
  have hl : broadcastInDim ⟨2, ![3300000, 32]⟩ ![0, 1] hb s (ix2 r q) = s (ix2 r (0 : Fin 1)) :=
    broadcastInDim_apply ![0, 1] hb s (ix2 r q) (ix2 r (0 : Fin 1)) fun a => by
      match a with
      | ⟨0, _⟩ =>
        show r.val = if (3300000 : Nat) = 1 then 0 else r.val
        rw [if_neg (by decide)]
      | ⟨1, _⟩ =>
        show (0 : Nat) = if (1 : Nat) = 1 then 0 else q.val
        rw [if_pos rfl]
  show h (ix2 r q) * broadcastInDim ⟨2, ![3300000, 32]⟩ ![0, 1] hb s (ix2 r q) = h (ix2 r q) * s (ix2 r (0 : Fin 1))
  rw [hl]

/-- The coefficient column broadcast across 16 features and multiplied in. -/
theorem scale16_eq (hb : (⟨2, ![3300000, 1]⟩ : Shape).BroadcastsInDim ⟨2, ![3300000, 16]⟩ ![0, 1])
    (h : FVec Ideal ⟨2, ![3300000, 16]⟩ .f32) (s : FVec Ideal ⟨2, ![3300000, 1]⟩ .f32) :
    mulf h (broadcastInDim ⟨2, ![3300000, 16]⟩ ![0, 1] hb s) = scale16 h s := by
  funext j
  obtain ⟨r, q, rfl⟩ : ∃ (r : Fin 3300000) (q : Fin 16), j = ix2 r q := ⟨j 0, j 1, eq_ix2 j⟩
  have hl : broadcastInDim ⟨2, ![3300000, 16]⟩ ![0, 1] hb s (ix2 r q) = s (ix2 r (0 : Fin 1)) :=
    broadcastInDim_apply ![0, 1] hb s (ix2 r q) (ix2 r (0 : Fin 1)) fun a => by
      match a with
      | ⟨0, _⟩ =>
        show r.val = if (3300000 : Nat) = 1 then 0 else r.val
        rw [if_neg (by decide)]
      | ⟨1, _⟩ =>
        show (0 : Nat) = if (1 : Nat) = 1 then 0 else q.val
        rw [if_pos rfl]
  show h (ix2 r q) * broadcastInDim ⟨2, ![3300000, 16]⟩ ![0, 1] hb s (ix2 r q) = h (ix2 r q) * s (ix2 r (0 : Fin 1))
  rw [hl]

/-! ## The bias, entry by entry -/

/-- The bias row broadcast down 100000 nodes: entry (p, q) of the broadcast is b(0, q). -/
theorem biasRow32_apply (hb : (⟨2, ![1, 32]⟩ : Shape).BroadcastsInDim ⟨2, ![100000, 32]⟩ ![0, 1])
    (b : FVec Ideal ⟨2, ![1, 32]⟩ .f32) (p : Fin 100000) (q : Fin 32) :
    broadcastInDim ⟨2, ![100000, 32]⟩ ![0, 1] hb b (ix2 p q) = b (ix2 (0 : Fin 1) q) :=
  broadcastInDim_apply ![0, 1] hb b (ix2 p q) (ix2 (0 : Fin 1) q) fun a => by
    match a with
    | ⟨0, _⟩ =>
      show (0 : Nat) = if (1 : Nat) = 1 then 0 else p.val
      rw [if_pos rfl]
    | ⟨1, _⟩ =>
      show q.val = if (32 : Nat) = 1 then 0 else q.val
      rw [if_neg (by decide)]

theorem biasRow16_apply (hb : (⟨2, ![1, 16]⟩ : Shape).BroadcastsInDim ⟨2, ![100000, 16]⟩ ![0, 1])
    (b : FVec Ideal ⟨2, ![1, 16]⟩ .f32) (p : Fin 100000) (q : Fin 16) :
    broadcastInDim ⟨2, ![100000, 16]⟩ ![0, 1] hb b (ix2 p q) = b (ix2 (0 : Fin 1) q) :=
  broadcastInDim_apply ![0, 1] hb b (ix2 p q) (ix2 (0 : Fin 1) q) fun a => by
    match a with
    | ⟨0, _⟩ =>
      show (0 : Nat) = if (1 : Nat) = 1 then 0 else p.val
      rw [if_pos rfl]
    | ⟨1, _⟩ =>
      show q.val = if (16 : Nat) = 1 then 0 else q.val
      rw [if_neg (by decide)]

/-- Adding the broadcast bias row and taking the larger of the sum and an array of zeros, entry by entry. -/
theorem biasRelu32_eq (hb : (⟨2, ![1, 32]⟩ : Shape).BroadcastsInDim ⟨2, ![100000, 32]⟩ ![0, 1])
    (hz : (⟨0, ![]⟩ : Shape).BroadcastsInDim ⟨2, ![100000, 32]⟩ ![])
    (a : FVec Ideal ⟨2, ![100000, 32]⟩ .f32) (b : FVec Ideal ⟨2, ![1, 32]⟩ .f32) :
    maximumf (addf a (broadcastInDim ⟨2, ![100000, 32]⟩ ![0, 1] hb b))
        (broadcastInDim ⟨2, ![100000, 32]⟩ ![] hz (constant (F := Ideal) ⟨0, ![]⟩ .f32 0x00000000#32))
      = biasRelu32 a b := by
  funext j
  obtain ⟨p, q, rfl⟩ : ∃ (p : Fin 100000) (q : Fin 32), j = ix2 p q := ⟨j 0, j 1, eq_ix2 j⟩
  have hzero : broadcastInDim ⟨2, ![100000, 32]⟩ ![] hz (constant (F := Ideal) ⟨0, ![]⟩ .f32 0x00000000#32) (ix2 p q)
      = Ideal.ofBits .f32 0x00000000#32 :=
    broadcastInDim_apply ![] hz (constant (F := Ideal) ⟨0, ![]⟩ .f32 0x00000000#32) (ix2 p q) ix0 fun a => a.elim0
  show max (a (ix2 p q) + broadcastInDim ⟨2, ![100000, 32]⟩ ![0, 1] hb b (ix2 p q))
      (broadcastInDim ⟨2, ![100000, 32]⟩ ![] hz (constant (F := Ideal) ⟨0, ![]⟩ .f32 0x00000000#32) (ix2 p q))
    = max (a (ix2 p q) + b (ix2 (0 : Fin 1) q)) (Ideal.ofBits .f32 0x00000000#32)
  rw [biasRow32_apply hb b p q, hzero]

/-- Adding the broadcast bias row, entry by entry. -/
theorem bias16_eq (hb : (⟨2, ![1, 16]⟩ : Shape).BroadcastsInDim ⟨2, ![100000, 16]⟩ ![0, 1])
    (a : FVec Ideal ⟨2, ![100000, 16]⟩ .f32) (b : FVec Ideal ⟨2, ![1, 16]⟩ .f32) :
    addf a (broadcastInDim ⟨2, ![100000, 16]⟩ ![0, 1] hb b) = bias16 a b := by
  funext j
  obtain ⟨p, q, rfl⟩ : ∃ (p : Fin 100000) (q : Fin 16), j = ix2 p q := ⟨j 0, j 1, eq_ix2 j⟩
  show a (ix2 p q) + broadcastInDim ⟨2, ![100000, 16]⟩ ![0, 1] hb b (ix2 p q) = a (ix2 p q) + b (ix2 (0 : Fin 1) q)
  rw [biasRow16_apply hb b p q]

end Cert.Gcn

end
-- ==== Proof.RefNet.lean ====
/-
  The untiled program's result is the network of SpecNet.lean.

  The untiled program computes both layers with whole-array operations.  Its result, as a composed expression of
  the arguments, has the same outline as SpecNet.lean's `gcn`: the dense products are the sums of Spec.lean
  (RefDot.lean), the rescaling by the broadcast coefficient column, the bias addition and the positive part are
  Spec.lean's entrywise functions (Layout.lean), and around them sit this program's own gathers of rows, sums
  into target nodes, coefficient column (here written as a broadcast along a new unit axis) and bias rows
  (likewise).  The edge lists, degrees, inverse square roots and coefficients are named as in the tiled program's
  descent and never opened.
-/
import proofs.«113800_j37022618091719_1_alg».proof.Proof.RefRun
import proofs.«113800_j37022618091719_1_alg».proof.Proof.RefDot
import proofs.«113800_j37022618091719_1_alg».proof.Proof.Layout
import proofs.«113800_j37022618091719_1_alg».proof.Proof.SpecNet

set_option maxRecDepth 16384

noncomputable section

namespace Cert.ReferenceIdeal.Net

open Cert.ReferenceIdeal Cert.ReferenceIdeal.Gen Cert.ReferenceIdeal.Value
open Idealize.ShloMosaic Idealize.ShloMosaic.TcCoe Idealize.SL.Sem

/-- Row 0 of the edge array (the sources), then every node once. -/
def srcI (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Row 1 of the edge array (the targets), then every node once. -/
def dstI (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- Node numbers as a gather takes them: a negative number counts from the end (100000 is added), as a column. -/
def wrapIdx (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- Node numbers as a sum into targets takes them: as a column. -/
def colIdx (s : IVec S3300000 32) : IVec S3300000x1 32 :=
  broadcastInDim S3300000x1 ![0] bcast_S3300000_S3300000x1_0 s

/-- Each node's degree: a one summed into the node for every edge that targets it. -/
def degV (e : IVec S2x3200000 32) : FVec Ideal S100000 .f32 :=
  Host.scatterAdd scatter_S100000_S3300000x1_S3300000_n_0_0_1
    (broadcastInDim S100000 ![] bcast_S_S100000 (constant (F := Ideal) S_ .f32 0x00000000#32))
    (colIdx (dstI e))
    (broadcastInDim S3300000 ![] bcast_S_S3300000 (constant (F := Ideal) S_ .f32 0x3F800000#32))

/-- The inverse square root of the degree where the degree is positive, zero elsewhere. -/
def dinvV (e : IVec S2x3200000 32) : FVec Ideal S100000 .f32 :=
  select (cmpf (F := Ideal) .ogt (degV e) (broadcastInDim S100000 ![] bcast_S_S100000 (constant (F := Ideal) S_ .f32 0x00000000#32)))
    (Host.rsqrt (degV e))
    (broadcastInDim S100000 ![] bcast_S_S100000 (id (constant (F := Ideal) S_ .f32 0x00000000#32)))

/-- Each edge's coefficient: the product of its two end points' values. -/
def normV (e : IVec S2x3200000 32) : FVec Ideal S3300000 .f32 :=
  mulf (Host.gather gather_S100000_S3300000x1_S3300000_n_0_n_n_0_1_1 (dinvV e) (wrapIdx (srcI e)))
    (Host.gather gather_S100000_S3300000x1_S3300000_n_0_n_n_0_1_1 (dinvV e) (wrapIdx (dstI e)))

/-- The coefficients as a column, by a broadcast along the new unit axis. -/
def normCol (e : IVec S2x3200000 32) : FVec Ideal S3300000x1 .f32 :=
  broadcastInDim S3300000x1 ![0] bcast_S3300000_S3300000x1_0 (normV e)

/-- One row of 32 features per edge: the row of the edge's source node. -/
def gath32 (e : IVec S2x3200000 32) (h : FVec Ideal S100000x32 .f32) : FVec Ideal S3300000x32 .f32 :=
  Host.gather gather_S100000x32_S3300000x1_S3300000x32_1_0_n_n_0_1_132 h (wrapIdx (srcI e))

/-- The edges' rows of 32 features summed into their target nodes, from zero. -/
def scat32 (e : IVec S2x3200000 32) (u : FVec Ideal S3300000x32 .f32) : FVec Ideal S100000x32 .f32 :=
  Host.scatterAdd scatter_S100000x32_S3300000x1_S3300000x32_1_0_0_1
    (broadcastInDim S100000x32 ![] bcast_S_S100000x32 (constant (F := Ideal) S_ .f32 0x00000000#32)) (colIdx (dstI e)) u

/-- One row of 16 features per edge: the row of the edge's source node. -/
def gath16 (e : IVec S2x3200000 32) (h : FVec Ideal S100000x16 .f32) : FVec Ideal S3300000x16 .f32 :=
  Host.gather gather_S100000x16_S3300000x1_S3300000x16_1_0_n_n_0_1_116 h (wrapIdx (srcI e))

/-- The edges' rows of 16 features summed into their target nodes, from zero. -/
def scat16 (e : IVec S2x3200000 32) (u : FVec Ideal S3300000x16 .f32) : FVec Ideal S100000x16 .f32 :=
  Host.scatterAdd scatter_S100000x16_S3300000x1_S3300000x16_1_0_0_1
    (broadcastInDim S100000x16 ![] bcast_S_S100000x16 (constant (F := Ideal) S_ .f32 0x00000000#32)) (colIdx (dstI e)) u

/-- The first bias as a row, by a broadcast along the new unit axis. -/
def biasRow32 (b : FVec Ideal S32 .f32) : FVec Ideal S1x32 .f32 := broadcastInDim S1x32 ![1] bcast_S32_S1x32_1 b

/-- The second bias as a row, by a broadcast along the new unit axis. -/
def biasRow16 (b : FVec Ideal S16 .f32) : FVec Ideal S1x16 .f32 := broadcastInDim S1x16 ![1] bcast_S16_S1x16_1 b

/-- THE RESULT of the untiled program, as composed from the arguments, is the network of SpecNet.lean around this
    program's gathers, sums into targets, coefficient column and bias rows. -/
theorem ref_value (m : (ℓ : Loc nD τ sig) → Buf (Elt Ideal) ℓ) (c : Dev nD) :
    res_main_v90 (F := Ideal) m c
      = Cert.Gcn.gcn (gath32 (m ((c.tc : Thread nD τ).loc main_arg5))) (scat32 (m ((c.tc : Thread nD τ).loc main_arg5)))
          (gath16 (m ((c.tc : Thread nD τ).loc main_arg5))) (scat16 (m ((c.tc : Thread nD τ).loc main_arg5)))
          (normCol (m ((c.tc : Thread nD τ).loc main_arg5)))
          (m ((c.tc : Thread nD τ).loc main_arg0)) (m ((c.tc : Thread nD τ).loc main_arg1)) (biasRow32 (m ((c.tc : Thread nD τ).loc main_arg2)))
          (m ((c.tc : Thread nD τ).loc main_arg3)) (biasRow16 (m ((c.tc : Thread nD τ).loc main_arg4))) := by
  unfold res_main_v90
  rw [Cert.ReferenceIdeal.Stages.dot1_eq, Cert.ReferenceIdeal.Stages.dot2_eq, Cert.Gcn.scale32_eq, Cert.Gcn.scale16_eq,
    Cert.Gcn.biasRelu32_eq, Cert.Gcn.bias16_eq]
  unfold Cert.Gcn.gcn gath32 scat32 gath16 scat16 normCol biasRow32 biasRow16 normV dinvV degV colIdx wrapIdx srcI dstI
  rfl

end Cert.ReferenceIdeal.Net

end
-- ==== Proof.Net.lean ====
/-
  The two programs compute the same network, and the certificate's claims.

  The tiled program's result is SpecNet.lean's `gcn` around ITS gathers of rows, sums into target nodes,
  coefficient column and bias rows (Chain.lean, over the six regions' whole-array facts); the untiled program's
  result is the same `gcn` around ITS OWN (RefNet.lean).  The two programs' gathers and sums are the same
  operations with the same dimension numbers on the same index arrays, so they are equal as functions; the
  coefficient column is a reshape on one side and a broadcast along a new unit axis on the other, and so are the
  bias rows: equal arrays (Layout.lean).  No law of arithmetic joins the two sides beyond the reading of each
  dense piece entry by entry: the sums over the feature axis are over the same index set in the same form, so
  nothing here needs the inputs to be finite.
-/
import proofs.«113800_j37022618091719_1_alg».proof.Defs
import proofs.«113800_j37022618091719_1_alg».proof.Proof.Gen.Kernel.Frame
import proofs.«113800_j37022618091719_1_alg».proof.Proof.Gen.Pre_finite_inputs
import proofs.«113800_j37022618091719_1_alg».proof.Proof.RunValue
import proofs.«113800_j37022618091719_1_alg».proof.Proof.Chain
import proofs.«113800_j37022618091719_1_alg».proof.Proof.Reg0
import proofs.«113800_j37022618091719_1_alg».proof.Proof.Reg1
import proofs.«113800_j37022618091719_1_alg».proof.Proof.Reg2
import proofs.«113800_j37022618091719_1_alg».proof.Proof.Reg3
import proofs.«113800_j37022618091719_1_alg».proof.Proof.Reg4
import proofs.«113800_j37022618091719_1_alg».proof.Proof.Reg5
import proofs.«113800_j37022618091719_1_alg».proof.Proof.RefNet

set_option maxRecDepth 16384

noncomputable section

namespace Cert.Proof.Net

open Idealize.ShloMosaic Idealize.ShloMosaic.TcCoe Idealize.SL.Sem

/-! ## The two programs' pieces are the same -/

theorem gath32_eq (e : IVec Cert.KernelIdeal.S2x3200000 32) (h : FVec Ideal Cert.KernelIdeal.S100000x32 .f32) :
    Cert.ReferenceIdeal.Net.gath32 e h = Cert.KernelIdeal.Chain.gath32 e h := rfl
theorem scat32_eq (e : IVec Cert.KernelIdeal.S2x3200000 32) (u : FVec Ideal Cert.KernelIdeal.S3300000x32 .f32) :
    Cert.ReferenceIdeal.Net.scat32 e u = Cert.KernelIdeal.Chain.scat32 e u := rfl
theorem gath16_eq (e : IVec Cert.KernelIdeal.S2x3200000 32) (h : FVec Ideal Cert.KernelIdeal.S100000x16 .f32) :
    Cert.ReferenceIdeal.Net.gath16 e h = Cert.KernelIdeal.Chain.gath16 e h := rfl
theorem scat16_eq (e : IVec Cert.KernelIdeal.S2x3200000 32) (u : FVec Ideal Cert.KernelIdeal.S3300000x16 .f32) :
    Cert.ReferenceIdeal.Net.scat16 e u = Cert.KernelIdeal.Chain.scat16 e u := rfl
theorem normV_eq (e : IVec Cert.KernelIdeal.S2x3200000 32) :
    Cert.ReferenceIdeal.Net.normV e = Cert.KernelIdeal.Chain.normV e := rfl

/-- The coefficient column: a broadcast along the new axis on one side, a reshape on the other. -/
theorem norm_eq (e : IVec Cert.KernelIdeal.S2x3200000 32) :
    Cert.ReferenceIdeal.Net.normCol e = Cert.KernelIdeal.Chain.norm2 e := by
  unfold Cert.ReferenceIdeal.Net.normCol Cert.KernelIdeal.Chain.norm2
  rw [normV_eq]
  exact Cert.Gcn.column_eq _ _ _
theorem row32_eq (b : FVec Ideal Cert.KernelIdeal.S32 .f32) :
    Cert.ReferenceIdeal.Net.biasRow32 b = Cert.KernelIdeal.Chain.row32 b :=
  Cert.Gcn.row32_eq _ _ b
theorem row16_eq (b : FVec Ideal Cert.KernelIdeal.S16 .f32) :
    Cert.ReferenceIdeal.Net.biasRow16 b = Cert.KernelIdeal.Chain.row16 b :=
  Cert.Gcn.row16_eq _ _ b

/-- The same network on both sides. -/
theorem net_eq (e : IVec Cert.KernelIdeal.S2x3200000 32) (x : FVec Ideal Cert.KernelIdeal.S100000x16 .f32)
    (w1 : FVec Ideal Cert.KernelIdeal.S16x32 .f32) (b1 : FVec Ideal Cert.KernelIdeal.S32 .f32)
    (w2 : FVec Ideal Cert.KernelIdeal.S32x16 .f32) (b2 : FVec Ideal Cert.KernelIdeal.S16 .f32) :
    Cert.Gcn.gcn (Cert.ReferenceIdeal.Net.gath32 e) (Cert.ReferenceIdeal.Net.scat32 e) (Cert.ReferenceIdeal.Net.gath16 e)
        (Cert.ReferenceIdeal.Net.scat16 e) (Cert.ReferenceIdeal.Net.normCol e) x w1 (Cert.ReferenceIdeal.Net.biasRow32 b1) w2
        (Cert.ReferenceIdeal.Net.biasRow16 b2)
      = Cert.Gcn.gcn (Cert.KernelIdeal.Chain.gath32 e) (Cert.KernelIdeal.Chain.scat32 e) (Cert.KernelIdeal.Chain.gath16 e)
        (Cert.KernelIdeal.Chain.scat16 e) (Cert.KernelIdeal.Chain.norm2 e) x w1 (Cert.KernelIdeal.Chain.row32 b1) w2
        (Cert.KernelIdeal.Chain.row16 b2) := by
  have hg32 : Cert.ReferenceIdeal.Net.gath32 e = Cert.KernelIdeal.Chain.gath32 e := funext fun h => gath32_eq e h
  have hs32 : Cert.ReferenceIdeal.Net.scat32 e = Cert.KernelIdeal.Chain.scat32 e := funext fun u => scat32_eq e u
  have hg16 : Cert.ReferenceIdeal.Net.gath16 e = Cert.KernelIdeal.Chain.gath16 e := funext fun h => gath16_eq e h
  have hs16 : Cert.ReferenceIdeal.Net.scat16 e = Cert.KernelIdeal.Chain.scat16 e := funext fun u => scat16_eq e u
  rw [hg32, hs32, hg16, hs16, norm_eq, row32_eq, row16_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact instance the tiled program ends with its result array at the network of its arguments, the
    untiled program at the same network of ITS arguments, which agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.kernel_value m ρ
        Cert.KernelIdeal.Regions.final0 Cert.KernelIdeal.Regions.final1 Cert.KernelIdeal.Regions.final2
        Cert.KernelIdeal.Regions.final3 Cert.KernelIdeal.Regions.final4 Cert.KernelIdeal.Regions.final5 c), (h c).2⟩)
    (Cert.KernelIdeal.RunValue.run_value (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5⟩ := hagree c
  rw [Cert.ReferenceIdeal.Net.ref_value m' c, e0, e1, e2, e3, e4, e5]
  exact net_eq _ _ _ _ _ _

end Cert.Proof.Net

end
-- ==== Proof.lean ====
/-
  The certificate: a two-layer graph convolution computed by six tiled regions (a dense product, a per-edge
  rescaling and a bias addition per layer, with gathers of rows and sums into target nodes between them)
  against the same network computed with whole-array operations.

  Both programs run, fault nowhere and leave their arguments as they were.  The idealization rewrote no
  operation, so the tiled program read over the extended reals is its own text.  Over the extended reals the
  two programs end with equal result arrays: each tiled region leaves in its output array one whole-array
  function of its input arrays (the blocks its grid points write back are the blocks of that function, and
  they fill the array), the stretches between regions apply the same gathers and sums into targets as the
  untiled program does, and the dense pieces on the two sides are the same entrywise functions.  Net.lean
  assembles this; the modules it imports each do one step.
-/
import proofs.«113800_j37022618091719_1_alg».proof.Defs
import proofs.«113800_j37022618091719_1_alg».proof.Proof.Gen.Kernel
import proofs.«113800_j37022618091719_1_alg».proof.Proof.Gen.KernelIdeal
import proofs.«113800_j37022618091719_1_alg».proof.Proof.Gen.ReferenceIdeal
import proofs.«113800_j37022618091719_1_alg».proof.Proof.Gen.Pre_finite_inputs
import proofs.«113800_j37022618091719_1_alg».proof.Proof.Net

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Net.frame_k, Cert.Proof.Net.frame_ki, Cert.Proof.Net.frame_ri, trivial, Cert.Proof.Net.algebraic⟩

end Cert.Proof

end
